-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x4096 : Shape := ⟨3, ![4, 1, 4096]⟩
abbrev S11008x4096 : Shape := ⟨2, ![11008, 4096]⟩
abbrev S11008 : Shape := ⟨1, ![11008]⟩
abbrev S11008x512 : Shape := ⟨2, ![11008, 512]⟩
abbrev S512 : Shape := ⟨1, ![512]⟩
abbrev S4096x512 : Shape := ⟨2, ![4096, 512]⟩
abbrev S4096 : Shape := ⟨1, ![4096]⟩
abbrev S1 : Shape := ⟨1, ![1]⟩
abbrev S_ : Shape := ⟨0, ![]⟩

class Facts : Prop where
  bcast_S_S4x1x4096 : S_.BroadcastsInDim S4x1x4096 (![] : Fin 0 → Fin S4x1x4096.rank)
  reducesTo_S4x1x4096_S_d0_1_2 : S4x1x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_
  bcast_S_S11008x512 : S_.BroadcastsInDim S11008x512 (![] : Fin 0 → Fin S11008x512.rank)
  reducesTo_S11008x512_S_d0_1 : S11008x512.ReducesTo [0, 1] S_
  bcast_S_S512 : S_.BroadcastsInDim S512 (![] : Fin 0 → Fin S512.rank)
  reducesTo_S512_S_d0 : S512.ReducesTo [0] S_
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512 .f32) (main_arg5 : FVec F S4096x512 .f32) (main_arg6 : FVec F S4096 .f32) (main_arg7 : FVec F S1 .f32) (main_v13 : IVec S_ 1) (main_v16 : IVec S11008x512 1) : IVec S_ 1 :=
  let main_c_5 : IVec S_ 1 := constantI S_ 1 1#1
  let main_v17 : IVec S_ 1 := (fun x v => Host.reduce IntOp.andi x v reducesTo_S11008x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S4096x512 .f32 := Host.absf main_arg5
  let main_cst_8 : FVec F S_ .f32 := constant S_ .f32 0x7F800000#32
  let main_v25 : FVec F S4096x512 .f32 := broadcastInDim S4096x512 ![] bcast_S_S4096x512 main_cst_8
  let main_v26 : IVec S4096x512 1 := cmpf .olt main_v24 main_v25
  let main_c_9 : IVec S_ 1 := constantI S_ 1 1#1
  let main_v27 : IVec S_ 1 := (fun x v => Host.reduce IntOp.andi x v reducesTo_S4096x512_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_v33

def fn {F : FTy → Type} [FloatOps F] (main_arg0 : FVec F S4x1x4096 .f32) (main_arg1 : FVec F S11008x4096 .f32) (main_arg2 : FVec F S11008 .f32) (main_arg3 : FVec F S11008x512 .f32) (main_arg4 : FVec F S512 .f32) (main_arg5 : FVec F S4096x512 .f32) (main_arg6 : FVec F S4096 .f32) (main_arg7 : FVec F S1 .f32) : IVec S_ 1 :=
  let main_v0 : FVec F S4x1x4096 .f32 := Host.absf main_arg0
  let main_cst : FVec F S_ .f32 := constant S_ .f32 0x7F800000#32
  let main_v1 : FVec F S4x1x4096 .f32 := broadcastInDim S4x1x4096 ![] bcast_S_S4x1x4096 main_cst
  let main_v2 : IVec S4x1x4096 1 := cmpf .olt main_v0 main_v1
  let main_c : IVec S_ 1 := constantI S_ 1 1#1
  let main_v3 : IVec S_ 1 := (fun x v => Host.reduce IntOp.andi x v reducesTo_S4x1x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S11008x512 .f32 := Host.absf main_arg3
  let main_cst_4 : FVec F S_ .f32 := constant S_ .f32 0x7F800000#32
  let main_v15 : FVec F S11008x512 .f32 := broadcastInDim S11008x512 ![] bcast_S_S11008x512 main_cst_4
  let main_v16 : IVec S11008x512 1 := cmpf .olt main_v14 main_v15
  fn_part1 (F := F) main_arg4 main_arg5 main_arg6 main_arg7 main_v13 main_v16
-- ==== Kernel.lean ====
abbrev S4x1x4096 : Shape := ⟨3, ![4, 1, 4096]⟩
abbrev S11008x4096 : Shape := ⟨2, ![11008, 4096]⟩
abbrev S11008 : Shape := ⟨1, ![11008]⟩
abbrev S11008x512 : Shape := ⟨2, ![11008, 512]⟩
abbrev S512 : Shape := ⟨1, ![512]⟩
abbrev S4096x512 : Shape := ⟨2, ![4096, 512]⟩
abbrev S4096 : Shape := ⟨1, ![4096]⟩
abbrev S1 : Shape := ⟨1, ![1]⟩
abbrev S4x4096 : Shape := ⟨2, ![4, 4096]⟩
abbrev S1x4096 : Shape := ⟨2, ![1, 4096]⟩
abbrev S1x1 : Shape := ⟨2, ![1, 1]⟩
abbrev S1x11008 : Shape := ⟨2, ![1, 11008]⟩
abbrev S1x512 : Shape := ⟨2, ![1, 512]⟩
abbrev S4x11008 : Shape := ⟨2, ![4, 11008]⟩
abbrev S512x4096 : Shape := ⟨2, ![512, 4096]⟩
abbrev S512x512 : Shape := ⟨2, ![512, 512]⟩
abbrev S4x512 : Shape := ⟨2, ![4, 512]⟩
abbrev S4x1x11008 : Shape := ⟨3, ![4, 1, 11008]⟩

abbrev nBuf : Space → Nat
  | .hbm => 18
  | .vmem => 12
  | .smem => 0
  | _ => 0

abbrev bufTy : (tb : Table) → Fin (tcTables nBuf tb) → BufTy
  | .hbm, ⟨0, _⟩ => ⟨S4x1x4096, .f32⟩
  | .hbm, ⟨1, _⟩ => ⟨S11008x4096, .f32⟩
  | .hbm, ⟨2, _⟩ => ⟨S11008, .f32⟩
  | .hbm, ⟨3, _⟩ => ⟨S11008x512, .f32⟩
  | .hbm, ⟨4, _⟩ => ⟨S512, .f32⟩
  | .hbm, ⟨5, _⟩ => ⟨S4096x512, .f32⟩
  | .hbm, ⟨6, _⟩ => ⟨S4096, .f32⟩
  | .hbm, ⟨7, _⟩ => ⟨S1, .f32⟩
  | .hbm, ⟨8, _⟩ => ⟨S4x4096, .f32⟩
  | .hbm, ⟨9, _⟩ => ⟨S1x4096, .f32⟩
  | .hbm, ⟨10, _⟩ => ⟨S1x1, .f32⟩
  | .hbm, ⟨11, _⟩ => ⟨S1x11008, .f32⟩
  | .hbm, ⟨12, _⟩ => ⟨S1x512, .f32⟩
  | .hbm, ⟨13, _⟩ => ⟨S4096x512, .f32⟩
  | .hbm, ⟨14, _⟩ => ⟨S4096x512, .f32⟩
  | .hbm, ⟨15, _⟩ => ⟨S4096x512, .bf16⟩
  | .hbm, ⟨16, _⟩ => ⟨S4x11008, .f32⟩
  | .hbm, ⟨17, _⟩ => ⟨S4x1x11008, .f32⟩
  | .local _ .vmem, ⟨0, _⟩ => ⟨S4x4096, .f32⟩
  | .local _ .vmem, ⟨1, _⟩ => ⟨S1x4096, .f32⟩
  | .local _ .vmem, ⟨2, _⟩ => ⟨S1x1, .f32⟩
  | .local _ .vmem, ⟨3, _⟩ => ⟨S4096x512, .bf16⟩
  | .local _ .vmem, ⟨4, _⟩ => ⟨S512x4096, .f32⟩
  | .local _ .vmem, ⟨5, _⟩ => ⟨S512x4096, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S4x512, .f32⟩
  | .local _ .vmem, ⟨11, _⟩ => ⟨S4x512, .f32⟩
  | _, _ => ⟨S4x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x1x4096_S4x4096 : S4x1x4096.ShapeCasts S4x4096
  shapeCasts_S4096_S1x4096 : S4096.ShapeCasts S1x4096
  shapeCasts_S1_S1x1 : S1.ShapeCasts S1x1
  shapeCasts_S11008_S1x11008 : S11008.ShapeCasts S1x11008
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bitsLt_bf16_f32 : FTy.bits .bf16 < FTy.bits .f32
  inb_S4x4096_S4x4096_0_0 : ∀ a, (![0, 0] : Fin 2 → Nat) a + S4x4096.size a ≤ S4x4096.size a
  h_S4x4096 : 0 < S4x4096.numel
  shapeCasts_S4x4096_S4x4096 : S4x4096.ShapeCasts S4x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x4096_S4x4096 : S1x4096.Broadcasts S4x4096
  broadcasts_S1x1_S4x4096 : S1x1.Broadcasts S4x4096
  natLt_1_32 : 1 < 32
  inb_S512x4096_S512x4096_0_0 : ∀ a, (![0, 0] : Fin 2 → Nat) a + S512x4096.size a ≤ S512x4096.size a
  h_S512x4096 : 0 < S512x4096.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4x512 : S1x512.Broadcasts S4x512
  inb_S4x512_S4x512_0_0 : ∀ a, (![0, 0] : Fin 2 → Nat) a + S4x512.size a ≤ S4x512.size a
  h_S4x512 : 0 < S4x512.numel
  shapeCasts_S4x11008_S4x1x11008 : S4x11008.ShapeCasts S4x1x11008
  dot_S4x4096_S512x4096_S4x512_1_1_0_0_n_n_wf : DotDims.WF S4x4096 S512x4096 S4x512 [1] [1] [0] [0] [] []
  dot_S4x4096_S4096x512_S4x512_1_0_0_1_n_n_wf : DotDims.WF S4x4096 S4096x512 S4x512 [1] [0] [0] [1] [] []
  dot_S4x512_S512x512_S4x512_1_1_0_0_n_n_wf : DotDims.WF S4x512 S512x512 S4x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x4096.size a ≤ S4x4096.size a
  hwx0_0 : ∀ i : grid0.Coords, EltTy.bits .f32 = 32 ∨ (Rect.block (s := S4x4096) S4x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x512.size a
  hwx0_3 : ∀ i : grid0.Coords, EltTy.bits .bf16 = 32 ∨ (Rect.block (s := S4096x512) S4096x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S512x4096.size a < S11008x4096.size a
  hwx0_4 : ∀ i : grid0.Coords, EltTy.bits .f32 = 32 ∨ (Rect.unit (s := S11008x4096) (fun a => cc0_transform_4 i a * S512x4096.size a) (fun a => (Pipeline.Clip.of (cc0_transform_4 i a) (S512x4096.size a) (S11008x4096.size a)).extent (S512x4096.size a)) fun a => Pipeline.Clip.inb (Pipeline.Clip.ok_of (hstart0_4 i a))).WholeWords (EltTy.packing .f32)
  hwxs0_4 : ∀ i : grid0.Coords, EltTy.bits .f32 = 32 ∨ (Rect.unit (s := S512x4096) (fun _ => 0) (fun a => (Pipeline.Clip.of (cc0_transform_4 i a) (S512x4096.size a) (S11008x4096.size a)).extent (S512x4096.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S512x512.size a < S11008x512.size a
  hwx0_5 : ∀ i : grid0.Coords, EltTy.bits .f32 = 32 ∨ (Rect.unit (s := S11008x512) (fun a => cc0_transform_5 i a * S512x512.size a) (fun a => (Pipeline.Clip.of (cc0_transform_5 i a) (S512x512.size a) (S11008x512.size a)).extent (S512x512.size a)) fun a => Pipeline.Clip.inb (Pipeline.Clip.ok_of (hstart0_5 i a))).WholeWords (EltTy.packing .f32)
  hwxs0_5 : ∀ i : grid0.Coords, EltTy.bits .f32 = 32 ∨ (Rect.unit (s := S512x512) (fun _ => 0) (fun a => (Pipeline.Clip.of (cc0_transform_5 i a) (S512x512.size a) (S11008x512.size a)).extent (S512x512.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1x512.size a < S1x11008.size a
  hwx0_6 : ∀ i : grid0.Coords, EltTy.bits .f32 = 32 ∨ (Rect.unit (s := S1x11008) (fun a => cc0_transform_6 i a * S1x512.size a) (fun a => (Pipeline.Clip.of (cc0_transform_6 i a) (S1x512.size a) (S1x11008.size a)).extent (S1x512.size a)) fun a => Pipeline.Clip.inb (Pipeline.Clip.ok_of (hstart0_6 i a))).WholeWords (EltTy.packing .f32)
  hwxs0_6 : ∀ i : grid0.Coords, EltTy.bits .f32 = 32 ∨ (Rect.unit (s := S1x512) (fun _ => 0) (fun a => (Pipeline.Clip.of (cc0_transform_6 i a) (S1x512.size a) (S1x11008.size a)).extent (S1x512.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S4x512.size a < S4x11008.size a
  hwx0_7 : ∀ i : grid0.Coords, EltTy.bits .f32 = 32 ∨ (Rect.unit (s := S4x11008) (fun a => cc0_transform_7 i a * S4x512.size a) (fun a => (Pipeline.Clip.of (cc0_transform_7 i a) (S4x512.size a) (S4x11008.size a)).extent (S4x512.size a)) fun a => Pipeline.Clip.inb (Pipeline.Clip.ok_of (hstart0_7 i a))).WholeWords (EltTy.packing .f32)
  hwxs0_7 : ∀ i : grid0.Coords, EltTy.bits .f32 = 32 ∨ (Rect.unit (s := S4x512) (fun _ => 0) (fun a => (Pipeline.Clip.of (cc0_transform_7 i a) (S4x512.size a) (S4x11008.size a)).extent (S4x512.size a)) fun a => (Nat.zero_add _).trans_le (Pipeline.Clip.extent_le (Pipeline.Clip.ok_of (hstart0_7 i a)))).WholeWords (EltTy.packing .f32)

variable [Facts₀]

def dot_S4x4096_S512x4096_S4x512_1_1_0_0_n_n : DotDims S4x4096 S512x4096 S4x512 where
  lhsContracting := [1]
  rhsContracting := [1]
  lhsNonContracting := [0]
  rhsNonContracting := [0]
  lhsBatch := []
  rhsBatch := []
  wf := dot_S4x4096_S512x4096_S4x512_1_1_0_0_n_n_wf
def dot_S4x4096_S4096x512_S4x512_1_0_0_1_n_n : DotDims S4x4096 S4096x512 S4x512 where
  lhsContracting := [1]
  rhsContracting := [0]
  lhsNonContracting := [0]
  rhsNonContracting := [1]
  lhsBatch := []
  rhsBatch := []
  wf := dot_S4x4096_S4096x512_S4x512_1_0_0_1_n_n_wf
def dot_S4x512_S512x512_S4x512_1_1_0_0_n_n : DotDims S4x512 S512x512 S4x512 where
  lhsContracting := [1]
  rhsContracting := [1]
  lhsNonContracting := [0]
  rhsNonContracting := [0]
  lhsBatch := []
  rhsBatch := []
  wf := dot_S4x512_S512x512_S4x512_1_1_0_0_n_n_wf

abbrev win0_0 : Pipeline.Window sig grid0 :=
  Pipeline.Window.ofSpec (Memref.whole main_v0) S4x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S4096x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_arg1) S512x4096.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_arg3) S512x512.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v3) S1x512.size cc0_transform_6 reads0_6 false false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_v8) S4x512.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x1x4096 : Shape := ⟨3, ![4, 1, 4096]⟩
abbrev S11008x4096 : Shape := ⟨2, ![11008, 4096]⟩
abbrev S11008 : Shape := ⟨1, ![11008]⟩
abbrev S11008x512 : Shape := ⟨2, ![11008, 512]⟩
abbrev S512 : Shape := ⟨1, ![512]⟩
abbrev S4096x512 : Shape := ⟨2, ![4096, 512]⟩
abbrev S4096 : Shape := ⟨1, ![4096]⟩
abbrev S1 : Shape := ⟨1, ![1]⟩
abbrev S_ : Shape := ⟨0, ![]⟩
abbrev S1x1x4096 : Shape := ⟨3, ![1, 1, 4096]⟩
abbrev S4x1x11008 : Shape := ⟨3, ![4, 1, 11008]⟩
abbrev S1x1x11008 : Shape := ⟨3, ![1, 1, 11008]⟩
abbrev S1x512 : Shape := ⟨2, ![1, 512]⟩
abbrev S4x1x512 : Shape := ⟨3, ![4, 1, 512]⟩

abbrev nBuf : Space → Nat
  | .hbm => 31
  | .vmem => 0
  | .smem => 0
  | _ => 0

abbrev bufTy : (tb : Table) → Fin (tcTables nBuf tb) → BufTy
  | .hbm, ⟨0, _⟩ => ⟨S4x1x4096, .f32⟩
  | .hbm, ⟨1, _⟩ => ⟨S11008x4096, .f32⟩
  | .hbm, ⟨2, _⟩ => ⟨S11008, .f32⟩
  | .hbm, ⟨3, _⟩ => ⟨S11008x512, .f32⟩
  | .hbm, ⟨4, _⟩ => ⟨S512, .f32⟩
  | .hbm, ⟨5, _⟩ => ⟨S4096x512, .f32⟩
  | .hbm, ⟨6, _⟩ => ⟨S4096, .f32⟩
  | .hbm, ⟨7, _⟩ => ⟨S1, .f32⟩
  | .hbm, ⟨8, _⟩ => ⟨S_, .f32⟩
  | .hbm, ⟨9, _⟩ => ⟨S1x1x4096, .f32⟩
  | .hbm, ⟨10, _⟩ => ⟨S4x1x4096, .f32⟩
  | .hbm, ⟨11, _⟩ => ⟨S4x1x4096, .f32⟩
  | .hbm, ⟨12, _⟩ => ⟨S4x1x4096, .f32⟩
  | .hbm, ⟨13, _⟩ => ⟨S4x1x4096, .f32⟩
  | .hbm, ⟨14, _⟩ => ⟨S4x1x4096, .i1⟩
  | .hbm, ⟨15, _⟩ => ⟨S4x1x4096, .f32⟩
  | .hbm, ⟨16, _⟩ => ⟨S4x1x4096, .f32⟩
  | .hbm, ⟨17, _⟩ => ⟨S4x1x11008, .f32⟩
  | .hbm, ⟨18, _⟩ => ⟨S1x1x11008, .f32⟩
  | .hbm, ⟨19, _⟩ => ⟨S4x1x11008, .f32⟩
  | .hbm, ⟨20, _⟩ => ⟨S4x1x11008, .f32⟩
  | .hbm, ⟨21, _⟩ => ⟨S_, .f32⟩
  | .hbm, ⟨22, _⟩ => ⟨S4x1x4096, .f32⟩
  | .hbm, ⟨23, _⟩ => ⟨S4x1x4096, .f32⟩
  | .hbm, ⟨24, _⟩ => ⟨S4x1x4096, .f32⟩
  | .hbm, ⟨25, _⟩ => ⟨S1x512, .f32⟩
  | .hbm, ⟨26, _⟩ => ⟨S4096x512, .f32⟩
  | .hbm, ⟨27, _⟩ => ⟨S4096x512, .f32⟩
  | .hbm, ⟨28, _⟩ => ⟨S4x1x512, .f32⟩
  | .hbm, ⟨29, _⟩ => ⟨S4x1x11008, .f32⟩
  | .hbm, ⟨30, _⟩ => ⟨S4x1x11008, .f32⟩
  | _, _ => ⟨S4x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  shapeCasts_S1_S_ : S1.ShapeCasts S_
  bcast_S4096_S1x1x4096_2 : S4096.BroadcastsInDim S1x1x4096 (![2] : Fin 1 → Fin S1x1x4096.rank)
  bcast_S1x1x4096_S4x1x4096_0_1_2 : S1x1x4096.BroadcastsInDim S4x1x4096 (![0, 1, 2] : Fin 3 → Fin S4x1x4096.rank)
  bcast_S_S4x1x4096 : S_.BroadcastsInDim S4x1x4096 (![] : Fin 0 → Fin S4x1x4096.rank)
  bcast_S11008_S1x1x11008_2 : S11008.BroadcastsInDim S1x1x11008 (![2] : Fin 1 → Fin S1x1x11008.rank)
  bcast_S1x1x11008_S4x1x11008_0_1_2 : S1x1x11008.BroadcastsInDim S4x1x11008 (![0, 1, 2] : Fin 3 → Fin S4x1x11008.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  dot_S4x1x4096_S11008x4096_S4x1x11008_2_1_01_0_n_n_wf : DotDims.WF S4x1x4096 S11008x4096 S4x1x11008 [2] [1] [0, 1] [0] [] []
  dot_S4x1x4096_S4096x512_S4x1x512_2_0_01_1_n_n_wf : DotDims.WF S4x1x4096 S4096x512 S4x1x512 [2] [0] [0, 1] [1] [] []
  dot_S4x1x512_S11008x512_S4x1x11008_2_1_01_0_n_n_wf : DotDims.WF S4x1x512 S11008x512 S4x1x11008 [2] [1] [0, 1] [0] [] []

variable [Facts₀]

def dot_S4x1x4096_S11008x4096_S4x1x11008_2_1_01_0_n_n : DotDims S4x1x4096 S11008x4096 S4x1x11008 where
  lhsContracting := [2]
  rhsContracting := [1]
  lhsNonContracting := [0, 1]
  rhsNonContracting := [0]
  lhsBatch := []
  rhsBatch := []
  wf := dot_S4x1x4096_S11008x4096_S4x1x11008_2_1_01_0_n_n_wf
def dot_S4x1x4096_S4096x512_S4x1x512_2_0_01_1_n_n : DotDims S4x1x4096 S4096x512 S4x1x512 where
  lhsContracting := [2]
  rhsContracting := [0]
  lhsNonContracting := [0, 1]
  rhsNonContracting := [1]
  lhsBatch := []
  rhsBatch := []
  wf := dot_S4x1x4096_S4096x512_S4x1x512_2_0_01_1_n_n_wf
def dot_S4x1x512_S11008x512_S4x1x11008_2_1_01_0_n_n : DotDims S4x1x512 S11008x512 S4x1x11008 where
  lhsContracting := [2]
  rhsContracting := [1]
  lhsNonContracting := [0, 1]
  rhsNonContracting := [0]
  lhsBatch := []
  rhsBatch := []
  wf := dot_S4x1x512_S11008x512_S4x1x11008_2_1_01_0_n_n_wf

class Facts : Prop extends Facts₀ where

variable [Facts]
-- ==== Proof.BodyK.lean ====
/-
  The kernel body at one grid point, and the frame of the whole program, for any float instance.

  The body reads seven staging buffers whole — the x block [4,4096], the scale row [1,4096], the threshold [1,1],
  the low-rank factor V·diag(S) [4096,512], a tile of 512 weight rows [512,4096], the matching tile of U [512,512]
  and of the bias row [1,512] — and stores one value, the payload of those seven, over the whole output tile [4,512].
  The grid has 22 points over an axis of 11008 = 21·512 + 256 columns, so at the last point the three tiled inputs
  and the output overhang their arrays by 256: a fetch there names only the tile's first 256 rows (entries), the
  rest of the buffer is whatever it is, and the write-back writes only the first 256 columns. Accordingly the proof
  data names each tiled input's buffer on its part inside the array only (filled out with the zero word, which
  nothing reads), and the frame, which claims nothing of the output, forgets the output window altogether: what the
  body leaves there may depend on the unnamed tail and is never asked.
-/
import proofs.«177461_j14181982011638_1_alg».proof.Proof.Gen.Kernel.Skeleton
import proofs.«177461_j14181982011638_1_alg».proof.Proof.Gen.Kernel.Launch
import proofs.«177461_j14181982011638_1_alg».proof.Proof.Gen.Kernel.Points
import proofs.«177461_j14181982011638_1_alg».proof.Proof.Gen.Kernel.Frame
import Idealize.ShloMosaic.Lib.Pipeline.FrameBody
import Idealize.ShloMosaic.Lib.Pipeline.FrameSuffix
import Idealize.ShloMosaic.Lib.Tactic
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's one store -/

abbrev rOut : Rect S4x512 := Rect.unit (s := S4x512) ![0, 0] S4x512.size inb_S4x512_S4x512_0_0

/-- The one store's rectangle is the whole output tile. -/
theorem coverOut (p0 : Vec F S4x512 .f32) (y : S4x512.Idx) :
    ∃ pc ∈ ([⟨rOut, p0⟩] : List (View.Piece (Elt F) S4x512 .f32)), y ∈ pc.1.set :=
  View.cover_of_tiled [⟨rOut, p0⟩] S4x512.size (by rfl) y

theorem hz : (![0, 0] : Fin 2 → Nat) = fun _ => 0 := funext fun a => by fin_cases a <;> rfl

/-- Whole loads read the contents and one whole store leaves its value: the output tile is the payload of the seven
    input buffers' contents. -/
theorem canon_pay (x0 : Vec F S4x4096 .f32) (x1 : Vec F S1x4096 .f32) (x2 : Vec F S1x1 .f32) (x3 : Vec F S4096x512 .bf16)
    (x4 : Vec F S512x4096 .f32) (x5 : Vec F S512x512 .f32) (x6 : Vec F S1x512 .f32) :
    View.canon [(⟨rOut, k0_pay1 (View.ld x0 (Rect.unit (s := S4x4096) ![0, 0] S4x4096.size inb_S4x4096_S4x4096_0_0))
        (View.ld x1 (Rect.unit (s := S1x4096) ![0, 0] S1x4096.size inb_S1x4096_S1x4096_0_0))
        (View.ld x2 (Rect.unit (s := S1x1) ![0, 0] S1x1.size inb_S1x1_S1x1_0_0))
        (View.ld x4 (Rect.unit (s := S512x4096) ![0, 0] S512x4096.size inb_S512x4096_S512x4096_0_0))
        (View.ld x3 (Rect.unit (s := S4096x512) ![0, 0] S4096x512.size inb_S4096x512_S4096x512_0_0))
        (View.ld x5 (Rect.unit (s := S512x512) ![0, 0] S512x512.size inb_S512x512_S512x512_0_0))
        (View.ld x6 (Rect.unit (s := S1x512) ![0, 0] S1x512.size inb_S1x512_S1x512_0_0))⟩ : View.Piece (Elt F) S4x512 .f32)]
      = k0_pay1 x0 x1 x2 x4 x3 x5 x6 := by
  rw [View.canon_unit_zero hz]
  simp only [View.ld_unit_zero (S := S4x4096) hz, View.ld_unit_zero (S := S1x4096) hz, View.ld_unit_zero (S := S1x1) hz,
    View.ld_unit_zero (S := S512x4096) hz, View.ld_unit_zero (S := S4096x512) hz, View.ld_unit_zero (S := S512x512) hz,
    View.ld_unit_zero (S := S1x512) hz]

/-! ## The body's triple -/

set_option maxHeartbeats 1000000 in
/-- On whole staging memrefs, the seven inputs' at contents `x0 … x6` and the output's at anything, the body runs to
    the continuation holding the inputs' as they were and the output's at the payload of the seven contents. -/
theorem sound_kernel (c : Dev nD) (E : Set ℕ) (i : grid0.Coords)
    (arg1 : Memref sig .tc .vmem S4x4096 .f32) (harg1 : arg1.IsWhole) (arg2 : Memref sig .tc .vmem S1x4096 .f32) (harg2 : arg2.IsWhole)
    (arg3 : Memref sig .tc .vmem S1x1 .f32) (harg3 : arg3.IsWhole) (arg4 : Memref sig .tc .vmem S4096x512 .bf16) (harg4 : arg4.IsWhole)
    (arg5 : Memref sig .tc .vmem S512x4096 .f32) (harg5 : arg5.IsWhole) (arg6 : Memref sig .tc .vmem S512x512 .f32) (harg6 : arg6.IsWhole)
    (arg7 : Memref sig .tc .vmem S1x512 .f32) (harg7 : arg7.IsWhole) (arg8 : Memref sig .tc .vmem S4x512 .f32) (harg8 : arg8.IsWhole)
    (x0 : Vec F S4x4096 .f32) (x1 : Vec F S1x4096 .f32) (x2 : Vec F S1x1 .f32) (x3 : Vec F S4096x512 .bf16)
    (x4 : Vec F S512x4096 .f32) (x5 : Vec F S512x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (k0_pay1 x0 x1 x2 x4 x3 x5 x6)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8) K := by
  rw [← canon_pay x0 x1 x2 x3 x4 x5 x6]
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverOut _)

/-! ## The proof data -/

/-- The tile of weight rows at point `t`: the rows inside the array, the rest filled out with the zero word. -/
def wblk (c : Dev nD) (t : Fin cfg0.N) : Vec F S512x4096 .f32 :=
  win0_4.fill (grid0.coords t) (fun _ => Scalar.ofBits .f32 0#32) (iblk m c 4 t)
/-- The tile of U's rows at point `t`, likewise. -/
def ublk (c : Dev nD) (t : Fin cfg0.N) : Vec F S512x512 .f32 :=
  win0_5.fill (grid0.coords t) (fun _ => Scalar.ofBits .f32 0#32) (iblk m c 5 t)
/-- The tile of the bias row at point `t`, likewise. -/
def bblk (c : Dev nD) (t : Fin cfg0.N) : Vec F S1x512 .f32 :=
  win0_6.fill (grid0.coords t) (fun _ => Scalar.ofBits .f32 0#32) (iblk m c 6 t)
/-- The output tile at point `t`: the payload of the resident blocks and the three tiles. -/
def oblk (c : Dev nD) (t : Fin cfg0.N) : Vec F S4x512 .f32 :=
  k0_pay1 (iblk m c 0 t) (iblk m c 1 t) (iblk m c 2 t) (wblk m c t) (iblk m c 3 t) (ublk m c t) (bblk m c t)

/-- The proof data of the one pipeline on core `c`: the arrays as the region finds them; after the body at point
    `t` each resident input's buffer at its block, each tiled input's at its tile, the output's at `oblk`; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => wblk m c t
    | ⟨5, _⟩ => ublk m c t
    | ⟨6, _⟩ => bblk m c t
    | ⟨7, _⟩ => oblk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = wblk m c t := by dsimp only [dats]
theorem after0_5 (c : Dev nD) (t : Fin cfg0.N) : (dats m 0 c).after 5 t = ublk m c t := by dsimp only [dats]
theorem after0_6 (c : Dev nD) (t : Fin cfg0.N) : (dats m 0 c).after 6 t = bblk m c t := by dsimp only [dats]
theorem after0_7 (c : Dev nD) (t : Fin cfg0.N) : (dats m 0 c).after 7 t = oblk m c t := by dsimp only [dats]

/-- A resident input's buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- A tiled input is fetched at every point: its buffer holds the tile's part inside the array, and `d` elsewhere. -/
theorem before0_4 (c : Dev nD) (t : Fin cfg0.N) (d) :
    (dats m 0 c).before 4 t d = win0_4.fill (grid0.coords t) d (iblk m c 4 t) := by
  unfold Dat.before; rw [if_pos (fetch0_4 t)]; rfl
theorem before0_5 (c : Dev nD) (t : Fin cfg0.N) (d) :
    (dats m 0 c).before 5 t d = win0_5.fill (grid0.coords t) d (iblk m c 5 t) := by
  unfold Dat.before; rw [if_pos (fetch0_5 t)]; rfl
theorem before0_6 (c : Dev nD) (t : Fin cfg0.N) (d) :
    (dats m 0 c).before 6 t d = win0_6.fill (grid0.coords t) d (iblk m c 6 t) := by
  unfold Dat.before; rw [if_pos (fetch0_6 t)]; rfl

/-- The tiles, cut back to their part inside the array, are the blocks read off the arrays. -/
theorem cut_wblk (c : Dev nD) (t : Fin cfg0.N) : win0_4.cut (grid0.coords t) (wblk m c t) = iblk m c 4 t := win0_4.cut_fill _ _ _
theorem cut_ublk (c : Dev nD) (t : Fin cfg0.N) : win0_5.cut (grid0.coords t) (ublk m c t) = iblk m c 5 t := win0_5.cut_fill _ _ _
theorem cut_bblk (c : Dev nD) (t : Fin cfg0.N) : win0_6.cut (grid0.coords t) (bblk m c t) = iblk m c 6 t := win0_6.cut_fill _ _ _

/-! ## The body obligation with the output forgotten -/

/-- The frame reads nothing of the output window: it is forgotten. -/
abbrev forgets0 : Fin cfg0.W → Bool := fun
  | ⟨0, _⟩ => false | ⟨1, _⟩ => false | ⟨2, _⟩ => false | ⟨3, _⟩ => false
  | ⟨4, _⟩ => false | ⟨5, _⟩ => false | ⟨6, _⟩ => false | ⟨7, _⟩ => true

/-- What the body is called with at point `t`: each input's buffer at what the pipeline left there, the output's at anything; -/
def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

/-- and what it returns: the resident inputs' buffers at their blocks, each tiled input's at its tile on the part
    inside the array, the output's at anything. -/
def bodyPostF (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare (win0_4.fill (grid0.coords t) d (win0_4.cut (grid0.coords t) ((dats m 0 c).after 4 t))))
    ∗ (∃ d, owns (c : Thread nD τ) (st0_5 t) fullShare (win0_5.fill (grid0.coords t) d (win0_5.cut (grid0.coords t) ((dats m 0 c).after 5 t))))
    ∗ (∃ d, owns (c : Thread nD τ) (st0_6 t) fullShare (win0_6.fill (grid0.coords t) d (win0_6.cut (grid0.coords t) ((dats m 0 c).after 6 t))))
    ∗ (∃ X, owns (c : Thread nD τ) (st0_7 t) fullShare X))

/-- The body at any point: the inputs' memrefs hold their blocks and tiles, so the body's triple applies; the
    invariant and what the core owes pass through unread. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, cut_wblk, cut_ublk, cut_bblk]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t)
    (win0_4.fill (grid0.coords t) d4 (iblk m c 4 t)) (win0_5.fill (grid0.coords t) d5 (iblk m c 5 t))
    (win0_6.fill (grid0.coords t) d6 (iblk m c 6 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexists d4; iexact H4
  isplitl [H5]; · iexists d5; iexact H5
  isplitl [H6]; · iexists d6; iexact H6
  iexists _; iexact H7

/-- The library's body obligation, the output window forgotten, at every point. -/
theorem body_obligationF (c : Dev nD) :
    BodyObligationLoose (dats (F := F) m 0 c) (defs₀ (F := F)) Variants.none () Set.univ forgets0 := fun t => by
  rw [bigSep_W0, bigSep_W0]
  exact sound_bodyF m c t

/-! ## The run and the frame -/

/-- The buffer the line after the region writes (a reshape of the forgotten output): nothing is stated of it. -/
def T0 : Finset (Ref sig .tc) := {main_v9}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
/-- For any values, from any memory with zero counters: every weakly fair execution of @main terminates, every input
    array of the pipeline ends as the region found it, and so does every other unscoped buffer but the one the line
    after the region writes; nothing is stated of the output. -/
theorem run_forget : θ_run defs (onTc (τ := τ) (main (F := F))) (s₀ m ρ)
    (Pipeline.RDat.FramePostR (cfgs 0) (fun c => (dats m 0 c).toRForget forgets0) T0 (V m)) :=
  Pipeline.RDat.θ_run_frame_around_T cfgs (0 : Fin 1) launch0 defs₀ Variants.none (fun c => (dats m 0 c).toRForget forgets0) T0 m ρ main
    (hbody := fun c => (body_obligationF m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame: the program runs to the end, faults nowhere, and its eight argument arrays end as launched — a staged
    argument as the pipeline's input array, the others as buffers no window stages and no host line writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run_forget m ρ)
  have h' : Pipeline.RDat.FramePostR (cfgs 0) (fun c => (dats m 0 c).toRForget forgets0) T0 (V m) r := h
  exact ⟨((h' c).2 main_arg0 (Finset.mem_sdiff.mpr ⟨Pipeline.mem_restRefs_of main_arg0 (by decide) (by decide), by decide⟩)).trans (V_main_arg0 m c),
      (Pipeline.RDat.FramePostR.arr_in h' c 4 rfl).trans ((A_eq m c 4).trans (V_main_arg1 m c)),
      ((h' c).2 main_arg2 (Finset.mem_sdiff.mpr ⟨Pipeline.mem_restRefs_of main_arg2 (by decide) (by decide), by decide⟩)).trans (V_main_arg2 m c),
      (Pipeline.RDat.FramePostR.arr_in h' c 5 rfl).trans ((A_eq m c 5).trans (V_main_arg3 m c)),
      ((h' c).2 main_arg4 (Finset.mem_sdiff.mpr ⟨Pipeline.mem_restRefs_of main_arg4 (by decide) (by decide), by decide⟩)).trans (V_main_arg4 m c),
      ((h' c).2 main_arg5 (Finset.mem_sdiff.mpr ⟨Pipeline.mem_restRefs_of main_arg5 (by decide) (by decide), by decide⟩)).trans (V_main_arg5 m c),
      ((h' c).2 main_arg6 (Finset.mem_sdiff.mpr ⟨Pipeline.mem_restRefs_of main_arg6 (by decide) (by decide), by decide⟩)).trans (V_main_arg6 m c),
      ((h' c).2 main_arg7 (Finset.mem_sdiff.mpr ⟨Pipeline.mem_restRefs_of main_arg7 (by decide) (by decide), by decide⟩)).trans (V_main_arg7 m c)⟩

end Cert.Kernel.Body

end
-- ==== Proof.BodyKI.lean ====
/-
  The kernel body at one grid point, and the frame of the whole program, for any float instance.

  The body reads seven staging buffers whole — the x block [4,4096], the scale row [1,4096], the threshold [1,1],
  the low-rank factor V·diag(S) [4096,512], a tile of 512 weight rows [512,4096], the matching tile of U [512,512]
  and of the bias row [1,512] — and stores one value, the payload of those seven, over the whole output tile [4,512].
  The grid has 22 points over an axis of 11008 = 21·512 + 256 columns, so at the last point the three tiled inputs
  and the output overhang their arrays by 256: a fetch there names only the tile's first 256 rows (entries), the
  rest of the buffer is whatever it is, and the write-back writes only the first 256 columns. Accordingly the proof
  data names each tiled input's buffer on its part inside the array only (filled out with the zero word, which
  nothing reads), and the frame, which claims nothing of the output, forgets the output window altogether: what the
  body leaves there may depend on the unnamed tail and is never asked.
-/
import proofs.«177461_j14181982011638_1_alg».proof.Proof.Gen.KernelIdeal.Skeleton
import proofs.«177461_j14181982011638_1_alg».proof.Proof.Gen.KernelIdeal.Launch
import proofs.«177461_j14181982011638_1_alg».proof.Proof.Gen.KernelIdeal.Points
import proofs.«177461_j14181982011638_1_alg».proof.Proof.Gen.KernelIdeal.Frame
import Idealize.ShloMosaic.Lib.Pipeline.FrameBody
import Idealize.ShloMosaic.Lib.Pipeline.FrameSuffix
import Idealize.ShloMosaic.Lib.Tactic
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's one store -/

abbrev rOut : Rect S4x512 := Rect.unit (s := S4x512) ![0, 0] S4x512.size inb_S4x512_S4x512_0_0

/-- The one store's rectangle is the whole output tile. -/
theorem coverOut (p0 : Vec F S4x512 .f32) (y : S4x512.Idx) :
    ∃ pc ∈ ([⟨rOut, p0⟩] : List (View.Piece (Elt F) S4x512 .f32)), y ∈ pc.1.set :=
  View.cover_of_tiled [⟨rOut, p0⟩] S4x512.size (by rfl) y

theorem hz : (![0, 0] : Fin 2 → Nat) = fun _ => 0 := funext fun a => by fin_cases a <;> rfl

/-- Whole loads read the contents and one whole store leaves its value: the output tile is the payload of the seven
    input buffers' contents. -/
theorem canon_pay (x0 : Vec F S4x4096 .f32) (x1 : Vec F S1x4096 .f32) (x2 : Vec F S1x1 .f32) (x3 : Vec F S4096x512 .bf16)
    (x4 : Vec F S512x4096 .f32) (x5 : Vec F S512x512 .f32) (x6 : Vec F S1x512 .f32) :
    View.canon [(⟨rOut, k0_pay1 (View.ld x0 (Rect.unit (s := S4x4096) ![0, 0] S4x4096.size inb_S4x4096_S4x4096_0_0))
        (View.ld x1 (Rect.unit (s := S1x4096) ![0, 0] S1x4096.size inb_S1x4096_S1x4096_0_0))
        (View.ld x2 (Rect.unit (s := S1x1) ![0, 0] S1x1.size inb_S1x1_S1x1_0_0))
        (View.ld x4 (Rect.unit (s := S512x4096) ![0, 0] S512x4096.size inb_S512x4096_S512x4096_0_0))
        (View.ld x3 (Rect.unit (s := S4096x512) ![0, 0] S4096x512.size inb_S4096x512_S4096x512_0_0))
        (View.ld x5 (Rect.unit (s := S512x512) ![0, 0] S512x512.size inb_S512x512_S512x512_0_0))
        (View.ld x6 (Rect.unit (s := S1x512) ![0, 0] S1x512.size inb_S1x512_S1x512_0_0))⟩ : View.Piece (Elt F) S4x512 .f32)]
      = k0_pay1 x0 x1 x2 x4 x3 x5 x6 := by
  rw [View.canon_unit_zero hz]
  simp only [View.ld_unit_zero (S := S4x4096) hz, View.ld_unit_zero (S := S1x4096) hz, View.ld_unit_zero (S := S1x1) hz,
    View.ld_unit_zero (S := S512x4096) hz, View.ld_unit_zero (S := S4096x512) hz, View.ld_unit_zero (S := S512x512) hz,
    View.ld_unit_zero (S := S1x512) hz]

/-! ## The body's triple -/

set_option maxHeartbeats 1000000 in
/-- On whole staging memrefs, the seven inputs' at contents `x0 … x6` and the output's at anything, the body runs to
    the continuation holding the inputs' as they were and the output's at the payload of the seven contents. -/
theorem sound_kernel (c : Dev nD) (E : Set ℕ) (i : grid0.Coords)
    (arg1 : Memref sig .tc .vmem S4x4096 .f32) (harg1 : arg1.IsWhole) (arg2 : Memref sig .tc .vmem S1x4096 .f32) (harg2 : arg2.IsWhole)
    (arg3 : Memref sig .tc .vmem S1x1 .f32) (harg3 : arg3.IsWhole) (arg4 : Memref sig .tc .vmem S4096x512 .bf16) (harg4 : arg4.IsWhole)
    (arg5 : Memref sig .tc .vmem S512x4096 .f32) (harg5 : arg5.IsWhole) (arg6 : Memref sig .tc .vmem S512x512 .f32) (harg6 : arg6.IsWhole)
    (arg7 : Memref sig .tc .vmem S1x512 .f32) (harg7 : arg7.IsWhole) (arg8 : Memref sig .tc .vmem S4x512 .f32) (harg8 : arg8.IsWhole)
    (x0 : Vec F S4x4096 .f32) (x1 : Vec F S1x4096 .f32) (x2 : Vec F S1x1 .f32) (x3 : Vec F S4096x512 .bf16)
    (x4 : Vec F S512x4096 .f32) (x5 : Vec F S512x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (k0_pay1 x0 x1 x2 x4 x3 x5 x6)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8) K := by
  rw [← canon_pay x0 x1 x2 x3 x4 x5 x6]
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverOut _)

/-! ## The proof data -/

/-- The tile of weight rows at point `t`: the rows inside the array, the rest filled out with the zero word. -/
def wblk (c : Dev nD) (t : Fin cfg0.N) : Vec F S512x4096 .f32 :=
  win0_4.fill (grid0.coords t) (fun _ => Scalar.ofBits .f32 0#32) (iblk m c 4 t)
/-- The tile of U's rows at point `t`, likewise. -/
def ublk (c : Dev nD) (t : Fin cfg0.N) : Vec F S512x512 .f32 :=
  win0_5.fill (grid0.coords t) (fun _ => Scalar.ofBits .f32 0#32) (iblk m c 5 t)
/-- The tile of the bias row at point `t`, likewise. -/
def bblk (c : Dev nD) (t : Fin cfg0.N) : Vec F S1x512 .f32 :=
  win0_6.fill (grid0.coords t) (fun _ => Scalar.ofBits .f32 0#32) (iblk m c 6 t)
/-- The output tile at point `t`: the payload of the resident blocks and the three tiles. -/
def oblk (c : Dev nD) (t : Fin cfg0.N) : Vec F S4x512 .f32 :=
  k0_pay1 (iblk m c 0 t) (iblk m c 1 t) (iblk m c 2 t) (wblk m c t) (iblk m c 3 t) (ublk m c t) (bblk m c t)

/-- The proof data of the one pipeline on core `c`: the arrays as the region finds them; after the body at point
    `t` each resident input's buffer at its block, each tiled input's at its tile, the output's at `oblk`; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => wblk m c t
    | ⟨5, _⟩ => ublk m c t
    | ⟨6, _⟩ => bblk m c t
    | ⟨7, _⟩ => oblk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = wblk m c t := by dsimp only [dats]
theorem after0_5 (c : Dev nD) (t : Fin cfg0.N) : (dats m 0 c).after 5 t = ublk m c t := by dsimp only [dats]
theorem after0_6 (c : Dev nD) (t : Fin cfg0.N) : (dats m 0 c).after 6 t = bblk m c t := by dsimp only [dats]
theorem after0_7 (c : Dev nD) (t : Fin cfg0.N) : (dats m 0 c).after 7 t = oblk m c t := by dsimp only [dats]

/-- A resident input's buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- A tiled input is fetched at every point: its buffer holds the tile's part inside the array, and `d` elsewhere. -/
theorem before0_4 (c : Dev nD) (t : Fin cfg0.N) (d) :
    (dats m 0 c).before 4 t d = win0_4.fill (grid0.coords t) d (iblk m c 4 t) := by
  unfold Dat.before; rw [if_pos (fetch0_4 t)]; rfl
theorem before0_5 (c : Dev nD) (t : Fin cfg0.N) (d) :
    (dats m 0 c).before 5 t d = win0_5.fill (grid0.coords t) d (iblk m c 5 t) := by
  unfold Dat.before; rw [if_pos (fetch0_5 t)]; rfl
theorem before0_6 (c : Dev nD) (t : Fin cfg0.N) (d) :
    (dats m 0 c).before 6 t d = win0_6.fill (grid0.coords t) d (iblk m c 6 t) := by
  unfold Dat.before; rw [if_pos (fetch0_6 t)]; rfl

/-- The tiles, cut back to their part inside the array, are the blocks read off the arrays. -/
theorem cut_wblk (c : Dev nD) (t : Fin cfg0.N) : win0_4.cut (grid0.coords t) (wblk m c t) = iblk m c 4 t := win0_4.cut_fill _ _ _
theorem cut_ublk (c : Dev nD) (t : Fin cfg0.N) : win0_5.cut (grid0.coords t) (ublk m c t) = iblk m c 5 t := win0_5.cut_fill _ _ _
theorem cut_bblk (c : Dev nD) (t : Fin cfg0.N) : win0_6.cut (grid0.coords t) (bblk m c t) = iblk m c 6 t := win0_6.cut_fill _ _ _

/-! ## The body obligation with the output forgotten -/

/-- The frame reads nothing of the output window: it is forgotten. -/
abbrev forgets0 : Fin cfg0.W → Bool := fun
  | ⟨0, _⟩ => false | ⟨1, _⟩ => false | ⟨2, _⟩ => false | ⟨3, _⟩ => false
  | ⟨4, _⟩ => false | ⟨5, _⟩ => false | ⟨6, _⟩ => false | ⟨7, _⟩ => true

/-- What the body is called with at point `t`: each input's buffer at what the pipeline left there, the output's at anything; -/
def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

/-- and what it returns: the resident inputs' buffers at their blocks, each tiled input's at its tile on the part
    inside the array, the output's at anything. -/
def bodyPostF (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare (win0_4.fill (grid0.coords t) d (win0_4.cut (grid0.coords t) ((dats m 0 c).after 4 t))))
    ∗ (∃ d, owns (c : Thread nD τ) (st0_5 t) fullShare (win0_5.fill (grid0.coords t) d (win0_5.cut (grid0.coords t) ((dats m 0 c).after 5 t))))
    ∗ (∃ d, owns (c : Thread nD τ) (st0_6 t) fullShare (win0_6.fill (grid0.coords t) d (win0_6.cut (grid0.coords t) ((dats m 0 c).after 6 t))))
    ∗ (∃ X, owns (c : Thread nD τ) (st0_7 t) fullShare X))

/-- The body at any point: the inputs' memrefs hold their blocks and tiles, so the body's triple applies; the
    invariant and what the core owes pass through unread. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, cut_wblk, cut_ublk, cut_bblk]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t)
    (win0_4.fill (grid0.coords t) d4 (iblk m c 4 t)) (win0_5.fill (grid0.coords t) d5 (iblk m c 5 t))
    (win0_6.fill (grid0.coords t) d6 (iblk m c 6 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexists d4; iexact H4
  isplitl [H5]; · iexists d5; iexact H5
  isplitl [H6]; · iexists d6; iexact H6
  iexists _; iexact H7

/-- The library's body obligation, the output window forgotten, at every point. -/
theorem body_obligationF (c : Dev nD) :
    BodyObligationLoose (dats (F := F) m 0 c) (defs₀ (F := F)) Variants.none () Set.univ forgets0 := fun t => by
  rw [bigSep_W0, bigSep_W0]
  exact sound_bodyF m c t

/-! ## The run and the frame -/

/-- The buffer the line after the region writes (a reshape of the forgotten output): nothing is stated of it. -/
def T0 : Finset (Ref sig .tc) := {main_v9}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
/-- For any values, from any memory with zero counters: every weakly fair execution of @main terminates, every input
    array of the pipeline ends as the region found it, and so does every other unscoped buffer but the one the line
    after the region writes; nothing is stated of the output. -/
theorem run_forget : θ_run defs (onTc (τ := τ) (main (F := F))) (s₀ m ρ)
    (Pipeline.RDat.FramePostR (cfgs 0) (fun c => (dats m 0 c).toRForget forgets0) T0 (V m)) :=
  Pipeline.RDat.θ_run_frame_around_T cfgs (0 : Fin 1) launch0 defs₀ Variants.none (fun c => (dats m 0 c).toRForget forgets0) T0 m ρ main
    (hbody := fun c => (body_obligationF m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame: the program runs to the end, faults nowhere, and its eight argument arrays end as launched — a staged
    argument as the pipeline's input array, the others as buffers no window stages and no host line writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run_forget m ρ)
  have h' : Pipeline.RDat.FramePostR (cfgs 0) (fun c => (dats m 0 c).toRForget forgets0) T0 (V m) r := h
  exact ⟨((h' c).2 main_arg0 (Finset.mem_sdiff.mpr ⟨Pipeline.mem_restRefs_of main_arg0 (by decide) (by decide), by decide⟩)).trans (V_main_arg0 m c),
      (Pipeline.RDat.FramePostR.arr_in h' c 4 rfl).trans ((A_eq m c 4).trans (V_main_arg1 m c)),
      ((h' c).2 main_arg2 (Finset.mem_sdiff.mpr ⟨Pipeline.mem_restRefs_of main_arg2 (by decide) (by decide), by decide⟩)).trans (V_main_arg2 m c),
      (Pipeline.RDat.FramePostR.arr_in h' c 5 rfl).trans ((A_eq m c 5).trans (V_main_arg3 m c)),
      ((h' c).2 main_arg4 (Finset.mem_sdiff.mpr ⟨Pipeline.mem_restRefs_of main_arg4 (by decide) (by decide), by decide⟩)).trans (V_main_arg4 m c),
      ((h' c).2 main_arg5 (Finset.mem_sdiff.mpr ⟨Pipeline.mem_restRefs_of main_arg5 (by decide) (by decide), by decide⟩)).trans (V_main_arg5 m c),
      ((h' c).2 main_arg6 (Finset.mem_sdiff.mpr ⟨Pipeline.mem_restRefs_of main_arg6 (by decide) (by decide), by decide⟩)).trans (V_main_arg6 m c),
      ((h' c).2 main_arg7 (Finset.mem_sdiff.mpr ⟨Pipeline.mem_restRefs_of main_arg7 (by decide) (by decide), by decide⟩)).trans (V_main_arg7 m c)⟩

end Cert.KernelIdeal.Body

end
-- ==== Proof.Spec.lean ====
/-
  The function both programs compute, over the extended reals.

  With x : [4,1,4096], sc : [4096], th : [1] the gate at (b, d) is 1 where |x[b,0,d] · sc[d]| > th[0] and 0 elsewhere.
  The gated entries x·gate meet the weight rows; the complementary entries x·(1 − gate) meet V·diag(S) and then the
  rows of U; the bias is added last:

    out[b,0,o] = (Σ_d x[b,0,d]·gate[b,d]·W[o,d]  +  Σ_r (Σ_d x[b,0,d]·(1 − gate[b,d])·(V[d,r]·S[r]))·U[o,r])  +  bias[o].

  Every sum is a finite sum in the commutative monoid of the extended reals, so neither the order of the terms nor a
  tiling of the index o changes it; the one law used to join two groupings of the three summands is
  commutativity and associativity of addition, which hold at the infinities too.
-/
import Idealize.ShloMosaic.PureOps.Ideal
import Idealize.ShloMosaic.Lib.ValueIdx

noncomputable section

open scoped BigOperators

namespace Cert.Spec

open Idealize.ShloMosaic Idealize.ShloMosaic.ValueIdx

/-- The gate of one entry `a` with scale `s` against the threshold `t`: the comparison's bit read as a number. -/
def gate1 (a s t : EReal) : EReal :=
  FloatOps.uitofp (F := Ideal) .f32 (FloatOps.cmpf (F := Ideal) (φ := .f32) .ogt (FloatOps.absf (F := Ideal) (φ := .f32) (FloatOps.mulf (F := Ideal) (φ := .f32) a s)) t)

/-- The entry where the gate is open. -/
def keep1 (a s t : EReal) : EReal := FloatOps.mulf (F := Ideal) (φ := .f32) a (gate1 a s t)

/-- The entry where the gate is closed: `a · (1 − gate)`, the one the float pattern 0x3F800000. -/
def rest1 (a s t : EReal) : EReal :=
  FloatOps.mulf (F := Ideal) (φ := .f32) a (FloatOps.subf (F := Ideal) (φ := .f32) (FloatOps.ofBits (F := Ideal) .f32 0x3F800000#32) (gate1 a s t))

/-- One output entry from one row of gated entries `xk`, the complementary row `xr`, one weight row `wrow`, the
    low-rank factor `vs`, one row `urow` of the second factor and one bias entry. -/
def out1 (xk xr wrow : Fin 4096 → EReal) (vs : Fin 4096 → Fin 512 → EReal) (urow : Fin 512 → EReal) (bj : EReal) : EReal :=
  ((∑ d : Fin 4096, xk d * wrow d) + (∑ r : Fin 512, (∑ d : Fin 4096, xr d * vs d r) * urow r)) + bj

abbrev SX : Shape := ⟨3, ![4, 1, 4096]⟩
abbrev SW : Shape := ⟨2, ![11008, 4096]⟩
abbrev SB : Shape := ⟨1, ![11008]⟩
abbrev SU : Shape := ⟨2, ![11008, 512]⟩
abbrev SS : Shape := ⟨1, ![512]⟩
abbrev SV : Shape := ⟨2, ![4096, 512]⟩
abbrev SC : Shape := ⟨1, ![4096]⟩
abbrev ST : Shape := ⟨1, ![1]⟩
abbrev SO : Shape := ⟨3, ![4, 1, 11008]⟩

variable (x : SX.Idx → EReal) (w : SW.Idx → EReal) (bias : SB.Idx → EReal) (u : SU.Idx → EReal) (s : SS.Idx → EReal)
  (v : SV.Idx → EReal) (sc : SC.Idx → EReal) (th : ST.Idx → EReal)

/-- The result at batch row `b` and output column `o`. -/
def Gat (b : Fin 4) (o : Fin 11008) : EReal :=
  out1 (fun d => keep1 (x (ix3 b 0 d)) (sc (ix1 d)) (th (ix1 0)))
    (fun d => rest1 (x (ix3 b 0 d)) (sc (ix1 d)) (th (ix1 0)))
    (fun d => w (ix2 o d))
    (fun d r => FloatOps.mulf (F := Ideal) (φ := .f32) (v (ix2 d r)) (s (ix1 r)))
    (fun r => u (ix2 o r))
    (bias (ix1 o))

/-- The whole result array [4,1,11008]. -/
def G : SO.Idx → EReal := fun i => Gat x w bias u s v sc th ⟨(i 0).val, (i 0).isLt⟩ ⟨(i 2).val, (i 2).isLt⟩

theorem G_ix3 (b : Fin 4) (z : Fin 1) (o : Fin 11008) : G x w bias u s v sc th (ix3 b z o) = Gat x w bias u s v sc th b o := rfl

end Cert.Spec

end
-- ==== Proof.RefValue.lean ====
/-
  The reference program computes the specified function G.

  Read at an output index (b, 0, o), the reference's last value is

    ((Σ_d keep[b,d]·W[o,d]) + bias[o]) + Σ_r (Σ_d rest[b,d]·(V[d,r]·S[r]))·U[o,r],

  where, with gate[b,d] the bit of |x[b,0,d]·sc[d]| > th[0] read as a number, keep = x·gate and rest = x·(1 − gate).
  Every stage below is one operation of the reference read at an index whose coordinates are given: a broadcast reads
  its operand at the surviving coordinates, the reshape of the one-entry threshold to a scalar reads that entry, an
  elementwise operation acts on the entries, and a contraction is the finite sum over its one contracted coordinate.
  The specification groups the same three summands as (sparse + lowrank) + bias; the two groupings agree because
  addition of extended reals is commutative and associative (a + c + b = a + b + c), with no finiteness needed.
-/
import proofs.«177461_j14181982011638_1_alg».proof.Proof.Gen.ReferenceIdeal.Read
import proofs.«177461_j14181982011638_1_alg».proof.Proof.Spec
import Idealize.ShloMosaic.Lib.ValueIdx
import Idealize.ShloMosaic.PureOps.Ideal.Laws

noncomputable section

open scoped BigOperators

namespace Cert.RefValue

open Idealize.ShloMosaic Idealize.ShloMosaic.ValueIdx Cert.ReferenceIdeal Cert.ReferenceIdeal.Gen
  Cert.ReferenceIdeal.Read Cert.Spec

variable (x0 : SX.Idx → EReal) (x1 : SW.Idx → EReal) (x2 : SB.Idx → EReal) (x3 : SU.Idx → EReal)
  (x4 : SS.Idx → EReal) (x5 : SV.Idx → EReal) (x6 : SC.Idx → EReal) (x7 : ST.Idx → EReal)

/-- The threshold reshaped from one entry to a scalar: its single value is the entry th[0]. -/
theorem thr_at (j : S_.Idx) : val_main_v0 (F := Ideal) x7 j = x7 (ix1 0) := by
  unfold val_main_v0
  refine (shapeCast_dropUnit_apply ![] x7 shapeCasts_S1_S_ j).trans ?_
  exact congrArg x7 (funext fun a => match a with | ⟨0, _⟩ => rfl)

/-- The scale broadcast [4096] → [1,1,4096] → [4,1,4096] reads sc[d] at (b, z, d): only the last coordinate survives. -/
theorem scale_at (b : Fin 4) (z : Fin 1) (d : Fin 4096) :
    val_main_v2 (F := Ideal) x6 (ix3 b z d) = x6 (ix1 d) := by
  rw [val_main_v2_apply, val_main_v1_apply]
  exact congrArg x6 (funext fun a => match a with | ⟨0, _⟩ => rfl)

/-- The comparison |x·sc| > th converted to a number is the gate of the entry x[b,0,d] with scale sc[d] against th[0].
    The middle axis has one coordinate, so z = 0. -/
theorem gate_at (b : Fin 4) (z : Fin 1) (d : Fin 4096) :
    val_main_v7 (F := Ideal) x0 x6 x7 (ix3 b z d) = gate1 (x0 (ix3 b 0 d)) (x6 (ix1 d)) (x7 (ix1 0)) := by
  obtain rfl : z = 0 := Subsingleton.elim _ _
  rw [val_main_v7_apply, val_main_v6_apply, val_main_v4_apply, val_main_v3_apply, val_main_v5_apply,
    scale_at, thr_at]
  rfl

/-- The scalar constant one, broadcast to [4,1,4096], reads one at every index. -/
theorem one_at (i : S4x1x4096.Idx) :
    val_main_v13 (F := Ideal) i = FloatOps.ofBits (F := Ideal) .f32 0x3F800000#32 := by
  rw [val_main_v13_apply, val_main_cst_apply]

/-- The entry times its gate: the entry kept where the gate is open. -/
theorem keep_at (b : Fin 4) (z : Fin 1) (d : Fin 4096) :
    val_main_v8 (F := Ideal) x0 x6 x7 (ix3 b z d) = keep1 (x0 (ix3 b 0 d)) (x6 (ix1 d)) (x7 (ix1 0)) := by
  rw [val_main_v8_apply, gate_at]
  obtain rfl : z = 0 := Subsingleton.elim _ _
  rfl

/-- The entry times (1 − gate): the entry kept where the gate is closed. -/
theorem rest_at (b : Fin 4) (z : Fin 1) (d : Fin 4096) :
    val_main_v15 (F := Ideal) x0 x6 x7 (ix3 b z d) = rest1 (x0 (ix3 b 0 d)) (x6 (ix1 d)) (x7 (ix1 0)) := by
  rw [val_main_v15_apply, val_main_v14_apply, gate_at, one_at]
  obtain rfl : z = 0 := Subsingleton.elim _ _
  rfl

/-- The factor V·diag(S): S broadcast [512] → [1,512] → [4096,512] reads S[r] at (d, r), so the product reads
    V[d,r]·S[r]. -/
theorem vs_at (d : Fin 4096) (r : Fin 512) :
    val_main_v18 (F := Ideal) x4 x5 (ix2 d r)
      = FloatOps.mulf (F := Ideal) (φ := .f32) (x5 (ix2 d r)) (x4 (ix1 r)) := by
  rw [val_main_v18_apply, val_main_v17_apply, val_main_v16_apply]
  exact congrArg (fun t => FloatOps.mulf (F := Ideal) (φ := .f32) (x5 (ix2 d r)) (x4 t))
    (funext fun a => match a with | ⟨0, _⟩ => rfl)

/-- The bias broadcast [11008] → [1,1,11008] → [4,1,11008] reads bias[o] at (b, z, o). -/
theorem bias_at (b : Fin 4) (z : Fin 1) (o : Fin 11008) :
    val_main_v11 (F := Ideal) x2 (ix3 b z o) = x2 (ix1 o) := by
  rw [val_main_v11_apply, val_main_v10_apply]
  exact congrArg x2 (funext fun a => match a with | ⟨0, _⟩ => rfl)

/-- The first contraction at (b, z, o): the sum over d of the kept entry (b, d) against the weight row o. The left
    operand is read at (b, z, d) and the right at (o, d). -/
theorem sparse_at (b : Fin 4) (z : Fin 1) (o : Fin 11008) :
    val_main_v9 (F := Ideal) x0 x1 x6 x7 (ix3 b z o)
      = ∑ d : Fin 4096, keep1 (x0 (ix3 b 0 d)) (x6 (ix1 d)) (x7 (ix1 0)) * x1 (ix2 o d) := by
  rw [val_main_v9_apply]
  refine Finset.sum_congr rfl fun d _ => ?_
  have el : lidx_main_v9 (ix3 b z o) d = ix3 b z d :=
    funext fun a => match a with | ⟨0, _⟩ => rfl | ⟨1, _⟩ => rfl | ⟨2, _⟩ => rfl
  have er : ridx_main_v9 (ix3 b z o) d = ix2 o d :=
    funext fun a => match a with | ⟨0, _⟩ => rfl | ⟨1, _⟩ => rfl
  rw [el, er, keep_at]

/-- The second contraction at (b, z, r): the sum over d of the complementary entry (b, d) against (V·diag(S))[d, r]. -/
theorem mid_at (b : Fin 4) (z : Fin 1) (r : Fin 512) :
    val_main_v19 (F := Ideal) x0 x4 x5 x6 x7 (ix3 b z r)
      = ∑ d : Fin 4096, rest1 (x0 (ix3 b 0 d)) (x6 (ix1 d)) (x7 (ix1 0))
          * FloatOps.mulf (F := Ideal) (φ := .f32) (x5 (ix2 d r)) (x4 (ix1 r)) := by
  rw [val_main_v19_apply]
  refine Finset.sum_congr rfl fun d _ => ?_
  have el : lidx_main_v19 (ix3 b z r) d = ix3 b z d :=
    funext fun a => match a with | ⟨0, _⟩ => rfl | ⟨1, _⟩ => rfl | ⟨2, _⟩ => rfl
  have er : ridx_main_v19 (ix3 b z r) d = ix2 d r :=
    funext fun a => match a with | ⟨0, _⟩ => rfl | ⟨1, _⟩ => rfl
  rw [el, er, rest_at, vs_at]

/-- The third contraction at (b, z, o): the sum over r of the previous contraction at (b, z, r) against U[o, r]. -/
theorem lowrank_at (b : Fin 4) (z : Fin 1) (o : Fin 11008) :
    val_main_v20 (F := Ideal) x0 x3 x4 x5 x6 x7 (ix3 b z o)
      = ∑ r : Fin 512, (∑ d : Fin 4096, rest1 (x0 (ix3 b 0 d)) (x6 (ix1 d)) (x7 (ix1 0))
          * FloatOps.mulf (F := Ideal) (φ := .f32) (x5 (ix2 d r)) (x4 (ix1 r))) * x3 (ix2 o r) := by
  rw [val_main_v20_apply]
  refine Finset.sum_congr rfl fun r _ => ?_
  have el : lidx_main_v20 (ix3 b z o) r = ix3 b z r :=
    funext fun a => match a with | ⟨0, _⟩ => rfl | ⟨1, _⟩ => rfl | ⟨2, _⟩ => rfl
  have er : ridx_main_v20 (ix3 b z o) r = ix2 o r :=
    funext fun a => match a with | ⟨0, _⟩ => rfl | ⟨1, _⟩ => rfl
  rw [el, er, mid_at]

/-- The reference's result is G. At (b, z, o) the reference adds (sparse + bias) + lowrank and G adds
    (sparse + lowrank) + bias; these agree by commutativity and associativity of addition of extended reals. -/
theorem ref_eq :
    val_main_v21 (F := Ideal) x0 x1 x2 x3 x4 x5 x6 x7 = G x0 x1 x2 x3 x4 x5 x6 x7 := by
  funext i
  obtain ⟨b, z, o, rfl⟩ : ∃ (b : Fin 4) (z : Fin 1) (o : Fin 11008), i = ix3 b z o :=
    ⟨i 0, i 1, i 2, eq_ix3 i⟩
  rw [G_ix3, val_main_v21_apply, val_main_v12_apply, sparse_at, bias_at, lowrank_at]
  unfold Gat out1
  exact add_right_comm _ _ _

end Cert.RefValue

end
-- ==== Proof.PayIdeal.lean ====
/-
  The kernel body's arithmetic read at one output entry, at the ideal values.

  The body takes a block x : [4,4096], a scale row, a threshold, a block of 512 weight rows, the factor V·diag(S) :
  [4096,512], a block of 512 rows of U and 512 bias entries. With the gate g[b,d] = 1 where |x[b,d]·sc[d]| > th and 0
  elsewhere, entry (b, j) of what it stores is

    (Σ_d x[b,d]·g[b,d]·W[j,d]  +  Σ_r (Σ_d x[b,d]·(1 − g[b,d])·VS[d,r])·U[j,r])  +  bias[j].

  So output column j reads row j of the weight block, row j of the U block and entry j of the bias row, and nothing
  else of those three.
-/
import proofs.«177461_j14181982011638_1_alg».proof.Proof.Gen.KernelIdeal.Skeleton
import proofs.«177461_j14181982011638_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The gate's bit as a number -/

/-- A one-bit word widened to 32 bits with zeros and then read as a signed integer is the bit read unsigned: both are
    0 or 1. -/
theorem toInt_setWidth_bit (c : BitVec 1) : (c.setWidth 32).toInt = (c.toNat : Int) := by
  rcases BitVec.eq_zero_or_eq_one c with h | h <;> subst h <;> decide

/-- So the signed conversion of the widened bit is the unsigned conversion of the bit. -/
theorem sitofp_extui_bit (c : BitVec 1) :
    FloatOps.sitofp (F := Ideal) .f32 (c.setWidth 32) = FloatOps.uitofp (F := Ideal) .f32 c := by
  show (((c.setWidth 32).toInt : ℝ) : EReal) = ((c.toNat : ℝ) : EReal)
  rw [toInt_setWidth_bit, Int.cast_natCast]

/-! ## The first product: gated entries against the weight rows (both operands contracted on axis 1) -/

theorem lhsA_0 (i : S4x512.Idx) (q : dot_S4x4096_S512x4096_S4x512_1_1_0_0_n_n.contr.Idx) :
    (dot_S4x4096_S512x4096_S4x512_1_1_0_0_n_n.lhsIdx i q 0).val = (i 0).val := by
  unfold DotDims.lhsIdx
  rw [dif_neg (show ¬(0 : Fin S4x4096.rank) ∈ dot_S4x4096_S512x4096_S4x512_1_1_0_0_n_n.lhsBatch by decide), dif_pos (show (0 : Fin S4x4096.rank) ∈ dot_S4x4096_S512x4096_S4x512_1_1_0_0_n_n.lhsNonContracting by decide)]
  rfl
theorem lhsA_1 (i : S4x512.Idx) (q : dot_S4x4096_S512x4096_S4x512_1_1_0_0_n_n.contr.Idx) :
    (dot_S4x4096_S512x4096_S4x512_1_1_0_0_n_n.lhsIdx i q 1).val = (q ⟨0, by decide⟩).val :=
  dot_S4x4096_S512x4096_S4x512_1_1_0_0_n_n.lhsIdx_val_of_single rfl i q
theorem rhsA_0 (i : S4x512.Idx) (q : dot_S4x4096_S512x4096_S4x512_1_1_0_0_n_n.contr.Idx) :
    (dot_S4x4096_S512x4096_S4x512_1_1_0_0_n_n.rhsIdx i q 0).val = (i 1).val := by
  unfold DotDims.rhsIdx
  rw [dif_neg (show ¬(0 : Fin S512x4096.rank) ∈ dot_S4x4096_S512x4096_S4x512_1_1_0_0_n_n.rhsBatch by decide), dif_pos (show (0 : Fin S512x4096.rank) ∈ dot_S4x4096_S512x4096_S4x512_1_1_0_0_n_n.rhsNonContracting by decide)]
  rfl
theorem rhsA_1 (i : S4x512.Idx) (q : dot_S4x4096_S512x4096_S4x512_1_1_0_0_n_n.contr.Idx) :
    (dot_S4x4096_S512x4096_S4x512_1_1_0_0_n_n.rhsIdx i q 1).val = (q ⟨0, by decide⟩).val :=
  dot_S4x4096_S512x4096_S4x512_1_1_0_0_n_n.rhsIdx_val_of_single rfl i q

/-- Entry (b, j) of the product into the zero accumulator is Σ_d a[b,d]·w[j,d]. -/
theorem mmA_apply (a : FVec Ideal S4x4096 .bf16) (w : FVec Ideal S512x4096 .bf16) (b : Fin 4) (j : Fin 512) :
    matmul dot_S4x4096_S512x4096_S4x512_1_1_0_0_n_n none a w (constant (F := Ideal) S4x512 .f32 0x00000000#32) (ix2 b j)
      = ∑ d : Fin 4096, a (ix2 b d) * w (ix2 j d) := by
  simp only [matmul]
  rw [Ideal.matmul_constant_zero_apply, ← Equiv.sum_comp (contrEquiv1 dot_S4x4096_S512x4096_S4x512_1_1_0_0_n_n 4096 rfl rfl).symm]
  refine Finset.sum_congr rfl fun k _ => ?_
  have hk := contrEquiv1_symm_val dot_S4x4096_S512x4096_S4x512_1_1_0_0_n_n 4096 rfl rfl k
  have el : dot_S4x4096_S512x4096_S4x512_1_1_0_0_n_n.lhsIdx (ix2 b j) ((contrEquiv1 dot_S4x4096_S512x4096_S4x512_1_1_0_0_n_n 4096 rfl rfl).symm k) = ix2 b k := funext fun ax => Fin.ext (by
    match ax with
    | ⟨0, _⟩ => exact lhsA_0 _ _
    | ⟨1, _⟩ => exact (lhsA_1 _ _).trans hk)
  have er : dot_S4x4096_S512x4096_S4x512_1_1_0_0_n_n.rhsIdx (ix2 b j) ((contrEquiv1 dot_S4x4096_S512x4096_S4x512_1_1_0_0_n_n 4096 rfl rfl).symm k) = ix2 j k := funext fun ax => Fin.ext (by
    match ax with
    | ⟨0, _⟩ => exact rhsA_0 _ _
    | ⟨1, _⟩ => exact (rhsA_1 _ _).trans hk)
  rw [el, er]

/-! ## The second product: complementary entries against V·diag(S) (left axis 1 against right axis 0) -/

theorem lhsB_0 (i : S4x512.Idx) (q : dot_S4x4096_S4096x512_S4x512_1_0_0_1_n_n.contr.Idx) :
    (dot_S4x4096_S4096x512_S4x512_1_0_0_1_n_n.lhsIdx i q 0).val = (i 0).val := by
  unfold DotDims.lhsIdx
  rw [dif_neg (show ¬(0 : Fin S4x4096.rank) ∈ dot_S4x4096_S4096x512_S4x512_1_0_0_1_n_n.lhsBatch by decide), dif_pos (show (0 : Fin S4x4096.rank) ∈ dot_S4x4096_S4096x512_S4x512_1_0_0_1_n_n.lhsNonContracting by decide)]
  rfl
theorem lhsB_1 (i : S4x512.Idx) (q : dot_S4x4096_S4096x512_S4x512_1_0_0_1_n_n.contr.Idx) :
    (dot_S4x4096_S4096x512_S4x512_1_0_0_1_n_n.lhsIdx i q 1).val = (q ⟨0, by decide⟩).val :=
  dot_S4x4096_S4096x512_S4x512_1_0_0_1_n_n.lhsIdx_val_of_single rfl i q
theorem rhsB_0 (i : S4x512.Idx) (q : dot_S4x4096_S4096x512_S4x512_1_0_0_1_n_n.contr.Idx) :
    (dot_S4x4096_S4096x512_S4x512_1_0_0_1_n_n.rhsIdx i q 0).val = (q ⟨0, by decide⟩).val :=
  dot_S4x4096_S4096x512_S4x512_1_0_0_1_n_n.rhsIdx_val_of_single rfl i q
theorem rhsB_1 (i : S4x512.Idx) (q : dot_S4x4096_S4096x512_S4x512_1_0_0_1_n_n.contr.Idx) :
    (dot_S4x4096_S4096x512_S4x512_1_0_0_1_n_n.rhsIdx i q 1).val = (i 1).val := by
  unfold DotDims.rhsIdx
  rw [dif_neg (show ¬(1 : Fin S4096x512.rank) ∈ dot_S4x4096_S4096x512_S4x512_1_0_0_1_n_n.rhsBatch by decide), dif_pos (show (1 : Fin S4096x512.rank) ∈ dot_S4x4096_S4096x512_S4x512_1_0_0_1_n_n.rhsNonContracting by decide)]
  rfl

/-- Entry (b, r) of the product into the zero accumulator is Σ_d a[b,d]·v[d,r]. -/
theorem mmB_apply (a : FVec Ideal S4x4096 .bf16) (v : FVec Ideal S4096x512 .bf16) (b : Fin 4) (r : Fin 512) :
    matmul dot_S4x4096_S4096x512_S4x512_1_0_0_1_n_n none a v (constant (F := Ideal) S4x512 .f32 0x00000000#32) (ix2 b r)
      = ∑ d : Fin 4096, a (ix2 b d) * v (ix2 d r) := by
  simp only [matmul]
  rw [Ideal.matmul_constant_zero_apply, ← Equiv.sum_comp (contrEquiv1 dot_S4x4096_S4096x512_S4x512_1_0_0_1_n_n 4096 rfl rfl).symm]
  refine Finset.sum_congr rfl fun k _ => ?_
  have hk := contrEquiv1_symm_val dot_S4x4096_S4096x512_S4x512_1_0_0_1_n_n 4096 rfl rfl k
  have el : dot_S4x4096_S4096x512_S4x512_1_0_0_1_n_n.lhsIdx (ix2 b r) ((contrEquiv1 dot_S4x4096_S4096x512_S4x512_1_0_0_1_n_n 4096 rfl rfl).symm k) = ix2 b k := funext fun ax => Fin.ext (by
    match ax with
    | ⟨0, _⟩ => exact lhsB_0 _ _
    | ⟨1, _⟩ => exact (lhsB_1 _ _).trans hk)
  have er : dot_S4x4096_S4096x512_S4x512_1_0_0_1_n_n.rhsIdx (ix2 b r) ((contrEquiv1 dot_S4x4096_S4096x512_S4x512_1_0_0_1_n_n 4096 rfl rfl).symm k) = ix2 k r := funext fun ax => Fin.ext (by
    match ax with
    | ⟨0, _⟩ => exact (rhsB_0 _ _).trans hk
    | ⟨1, _⟩ => exact rhsB_1 _ _)
  rw [el, er]

/-! ## The third product: the low-rank row against the rows of U (both operands contracted on axis 1) -/

theorem lhsC_0 (i : S4x512.Idx) (q : dot_S4x512_S512x512_S4x512_1_1_0_0_n_n.contr.Idx) :
    (dot_S4x512_S512x512_S4x512_1_1_0_0_n_n.lhsIdx i q 0).val = (i 0).val := by
  unfold DotDims.lhsIdx
  rw [dif_neg (show ¬(0 : Fin S4x512.rank) ∈ dot_S4x512_S512x512_S4x512_1_1_0_0_n_n.lhsBatch by decide), dif_pos (show (0 : Fin S4x512.rank) ∈ dot_S4x512_S512x512_S4x512_1_1_0_0_n_n.lhsNonContracting by decide)]
  rfl
theorem lhsC_1 (i : S4x512.Idx) (q : dot_S4x512_S512x512_S4x512_1_1_0_0_n_n.contr.Idx) :
    (dot_S4x512_S512x512_S4x512_1_1_0_0_n_n.lhsIdx i q 1).val = (q ⟨0, by decide⟩).val :=
  dot_S4x512_S512x512_S4x512_1_1_0_0_n_n.lhsIdx_val_of_single rfl i q
theorem rhsC_0 (i : S4x512.Idx) (q : dot_S4x512_S512x512_S4x512_1_1_0_0_n_n.contr.Idx) :
    (dot_S4x512_S512x512_S4x512_1_1_0_0_n_n.rhsIdx i q 0).val = (i 1).val := by
  unfold DotDims.rhsIdx
  rw [dif_neg (show ¬(0 : Fin S512x512.rank) ∈ dot_S4x512_S512x512_S4x512_1_1_0_0_n_n.rhsBatch by decide), dif_pos (show (0 : Fin S512x512.rank) ∈ dot_S4x512_S512x512_S4x512_1_1_0_0_n_n.rhsNonContracting by decide)]
  rfl
theorem rhsC_1 (i : S4x512.Idx) (q : dot_S4x512_S512x512_S4x512_1_1_0_0_n_n.contr.Idx) :
    (dot_S4x512_S512x512_S4x512_1_1_0_0_n_n.rhsIdx i q 1).val = (q ⟨0, by decide⟩).val :=
  dot_S4x512_S512x512_S4x512_1_1_0_0_n_n.rhsIdx_val_of_single rfl i q

/-- Entry (b, j) of the product into the zero accumulator is Σ_r a[b,r]·u[j,r]. -/
theorem mmC_apply (a : FVec Ideal S4x512 .bf16) (u : FVec Ideal S512x512 .bf16) (b : Fin 4) (j : Fin 512) :
    matmul dot_S4x512_S512x512_S4x512_1_1_0_0_n_n none a u (constant (F := Ideal) S4x512 .f32 0x00000000#32) (ix2 b j)
      = ∑ r : Fin 512, a (ix2 b r) * u (ix2 j r) := by
  simp only [matmul]
  rw [Ideal.matmul_constant_zero_apply, ← Equiv.sum_comp (contrEquiv1 dot_S4x512_S512x512_S4x512_1_1_0_0_n_n 512 rfl rfl).symm]
  refine Finset.sum_congr rfl fun k _ => ?_
  have hk := contrEquiv1_symm_val dot_S4x512_S512x512_S4x512_1_1_0_0_n_n 512 rfl rfl k
  have el : dot_S4x512_S512x512_S4x512_1_1_0_0_n_n.lhsIdx (ix2 b j) ((contrEquiv1 dot_S4x512_S512x512_S4x512_1_1_0_0_n_n 512 rfl rfl).symm k) = ix2 b k := funext fun ax => Fin.ext (by
    match ax with
    | ⟨0, _⟩ => exact lhsC_0 _ _
    | ⟨1, _⟩ => exact (lhsC_1 _ _).trans hk)
  have er : dot_S4x512_S512x512_S4x512_1_1_0_0_n_n.rhsIdx (ix2 b j) ((contrEquiv1 dot_S4x512_S512x512_S4x512_1_1_0_0_n_n 512 rfl rfl).symm k) = ix2 j k := funext fun ax => Fin.ext (by
    match ax with
    | ⟨0, _⟩ => exact rhsC_0 _ _
    | ⟨1, _⟩ => exact (rhsC_1 _ _).trans hk)
  rw [el, er]

/-! ## One entry broadcast over the whole block -/

/-- A [1,1] array broadcast to [4,4096] reads its one entry everywhere. -/
theorem bcast11_apply (v : FVec Ideal S1x1 .f32) (h : S1x1.Broadcasts S4x4096) (p : Fin 4) (c : Fin 4096) :
    broadcastTo S4x4096 v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## The gated and the complementary entry -/

/-- The gate's number at (b, d) as the kernel computes it: the comparison's bit, widened and converted signed. -/
theorem gate_apply (x0 : FVec Ideal S4x4096 .f32) (x1 : FVec Ideal S1x4096 .f32) (x2 : FVec Ideal S1x1 .f32)
    (h1 : S1x4096.Broadcasts S4x4096) (h2 : S1x1.Broadcasts S4x4096) (h32 : 1 < 32) (b : Fin 4) (d : Fin 4096) :
    (sitofp .f32 (extui 32 (cmpf .ogt (absf (mulf x0 (broadcastTo S4x4096 x1 h1))) (broadcastTo S4x4096 x2 h2)) h32) : FVec Ideal S4x4096 .f32) (ix2 b d)
      = Cert.Spec.gate1 (x0 (ix2 b d)) (x1 (ix2 0 d)) (x2 (ix2 0 0)) := by
  rw [sitofp_apply, extui_apply, sitofp_extui_bit, cmpf_apply]
  unfold Cert.Spec.gate1
  congr 2
  · show FloatOps.absf (FloatOps.mulf (x0 (ix2 b d)) (broadcastTo S4x4096 x1 h1 (ix2 b d))) = _
    rw [broadcastTo_1b_ab_apply]
  · exact bcast11_apply x2 h2 b d

/-! ## The payload at an index -/

/-- Entry (b, j) of what the body stores: the row formula over the gated and complementary entries of row b, row j of
    the weight block, the factor V·diag(S), row j of the U block and bias entry j. -/
theorem pay_apply (x0 : Vec Ideal S4x4096 .f32) (x1 : Vec Ideal S1x4096 .f32) (x2 : Vec Ideal S1x1 .f32) (x4 : Vec Ideal S512x4096 .f32) (x3 : Vec Ideal S4096x512 .bf16) (x5 : Vec Ideal S512x512 .f32) (x6 : Vec Ideal S1x512 .f32) (b : Fin 4) (j : Fin 512) :
    k0_pay1 (F := Ideal) x0 x1 x2 x4 x3 x5 x6 (ix2 b j)
      = Cert.Spec.out1 (fun d => Cert.Spec.keep1 (x0 (ix2 b d)) (x1 (ix2 0 d)) (x2 (ix2 0 0)))
          (fun d => Cert.Spec.rest1 (x0 (ix2 b d)) (x1 (ix2 0 d)) (x2 (ix2 0 0)))
          (fun d => x4 (ix2 j d)) (fun d r => x3 (ix2 d r)) (fun r => x5 (ix2 j r)) (x6 (ix2 0 j)) := by
  unfold k0_pay1
  simp only [shapeCast_self]
  rw [addf_apply, addf_apply, broadcastTo_1b_ab_apply]
  unfold Cert.Spec.out1
  congr 2
  · refine (mmA_apply _ _ b j).trans ?_
    refine Finset.sum_congr rfl fun d _ => ?_
    rw [truncf_apply, truncf_apply, mulf_apply, gate_apply]
    rfl
  · refine (mmC_apply _ _ b j).trans ?_
    refine Finset.sum_congr rfl fun r _ => ?_
    rw [truncf_apply, truncf_apply]
    congr 1
    refine (mmB_apply _ _ b r).trans ?_
    refine Finset.sum_congr rfl fun d _ => ?_
    rw [truncf_apply, mulf_apply, subf_apply, gate_apply]
    rfl

end Cert.KernelIdeal.Pay

end
-- ==== Proof.ExactRun.lean ====
/-
  The idealized kernel's run with every array named.

  At the last grid point the three tiled inputs (512 weight rows, 512 rows of U, 512 bias entries) and the output
  tile (512 columns) overhang their arrays by the same 256: what lies past the arrays' end in the input buffers is
  not named. Over the extended reals output column j is a function of weight row j, U row j and bias entry j alone
  (two sums of products and one more summand), so the output tile's kept columns — those the write-back writes — do
  not depend on the unnamed rows. That is all the pipeline asks of a cut output window, and it lets the proof data
  name the output tile by the payload of the tiles filled out with zeros.
-/
import proofs.«177461_j14181982011638_1_alg».proof.Proof.BodyKI
import proofs.«177461_j14181982011638_1_alg».proof.Proof.Spec
import proofs.«177461_j14181982011638_1_alg».proof.Proof.PayIdeal
import Idealize.ShloMosaic.Lib.ValueIdx
import Idealize.ShloMosaic.Lib.Pipeline.Value

set_option maxRecDepth 16384

noncomputable section

namespace Cert.KernelIdeal.Exact

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The cut sizes: the four tiled windows are cut alike -/

theorem xs7_0 : ∀ t : Fin cfg0.N, win0_7.xsize (grid0.coords t) 0 = 4 :=
  (by decide +kernel : ∀ t : Fin grid0.N, win0_7.xsize (grid0.coords t) 0 = 4)
theorem xs7_4 : ∀ t : Fin cfg0.N, win0_7.xsize (grid0.coords t) 1 = win0_4.xsize (grid0.coords t) 0 :=
  (by decide +kernel : ∀ t : Fin grid0.N, win0_7.xsize (grid0.coords t) 1 = win0_4.xsize (grid0.coords t) 0)
theorem xs7_5 : ∀ t : Fin cfg0.N, win0_7.xsize (grid0.coords t) 1 = win0_5.xsize (grid0.coords t) 0 :=
  (by decide +kernel : ∀ t : Fin grid0.N, win0_7.xsize (grid0.coords t) 1 = win0_5.xsize (grid0.coords t) 0)
theorem xs7_6 : ∀ t : Fin cfg0.N, win0_7.xsize (grid0.coords t) 1 = win0_6.xsize (grid0.coords t) 1 :=
  (by decide +kernel : ∀ t : Fin grid0.N, win0_7.xsize (grid0.coords t) 1 = win0_6.xsize (grid0.coords t) 1)
theorem xs4_1 : ∀ t : Fin cfg0.N, win0_4.xsize (grid0.coords t) 1 = 4096 :=
  (by decide +kernel : ∀ t : Fin grid0.N, win0_4.xsize (grid0.coords t) 1 = 4096)
theorem xs5_1 : ∀ t : Fin cfg0.N, win0_5.xsize (grid0.coords t) 1 = 512 :=
  (by decide +kernel : ∀ t : Fin grid0.N, win0_5.xsize (grid0.coords t) 1 = 512)
theorem xs6_0 : ∀ t : Fin cfg0.N, win0_6.xsize (grid0.coords t) 0 = 1 :=
  (by decide +kernel : ∀ t : Fin grid0.N, win0_6.xsize (grid0.coords t) 0 = 1)

/-! ## A kept entry of a filled tile does not see the filler -/

theorem fill4_kept (t : Fin cfg0.N) (d d' : S512x4096.Idx → EReal) (g : (win0_4.xblock (grid0.coords t)).Idx → EReal)
    (jj : Fin 512) (dd : Fin 4096) (h : jj.val < win0_7.xsize (grid0.coords t) 1) :
    win0_4.fill (grid0.coords t) d g (ix2 jj dd) = win0_4.fill (grid0.coords t) d' g (ix2 jj dd) := by
  have hm : win0_4.moved (grid0.coords t) (ix2 jj dd) = true :=
    (win0_4.moved_iff _ _).mpr fun a => by
      match a with
      | ⟨0, _⟩ => show jj.val < win0_4.xsize (grid0.coords t) 0; rw [← xs7_4 t]; exact h
      | ⟨1, _⟩ => show dd.val < win0_4.xsize (grid0.coords t) 1; rw [xs4_1 t]; exact dd.isLt
  unfold Window.fill; rw [dif_pos hm, dif_pos hm]

theorem fill5_kept (t : Fin cfg0.N) (d d' : S512x512.Idx → EReal) (g : (win0_5.xblock (grid0.coords t)).Idx → EReal)
    (jj : Fin 512) (rr : Fin 512) (h : jj.val < win0_7.xsize (grid0.coords t) 1) :
    win0_5.fill (grid0.coords t) d g (ix2 jj rr) = win0_5.fill (grid0.coords t) d' g (ix2 jj rr) := by
  have hm : win0_5.moved (grid0.coords t) (ix2 jj rr) = true :=
    (win0_5.moved_iff _ _).mpr fun a => by
      match a with
      | ⟨0, _⟩ => show jj.val < win0_5.xsize (grid0.coords t) 0; rw [← xs7_5 t]; exact h
      | ⟨1, _⟩ => show rr.val < win0_5.xsize (grid0.coords t) 1; rw [xs5_1 t]; exact rr.isLt
  unfold Window.fill; rw [dif_pos hm, dif_pos hm]

theorem fill6_kept (t : Fin cfg0.N) (d d' : S1x512.Idx → EReal) (g : (win0_6.xblock (grid0.coords t)).Idx → EReal)
    (jj : Fin 512) (h : jj.val < win0_7.xsize (grid0.coords t) 1) :
    win0_6.fill (grid0.coords t) d g (ix2 (0 : Fin 1) jj) = win0_6.fill (grid0.coords t) d' g (ix2 (0 : Fin 1) jj) := by
  have hm : win0_6.moved (grid0.coords t) (ix2 (0 : Fin 1) jj) = true :=
    (win0_6.moved_iff _ _).mpr fun a => by
      match a with
      | ⟨0, _⟩ => show (0 : Fin 1).val < win0_6.xsize (grid0.coords t) 0; rw [xs6_0 t]; exact Nat.one_pos
      | ⟨1, _⟩ => show jj.val < win0_6.xsize (grid0.coords t) 1; rw [← xs7_6 t]; exact h
  unfold Window.fill; rw [dif_pos hm, dif_pos hm]

/-! ## The kept columns of the output tile do not see the fillers -/

theorem cut_pay_indep (t : Fin cfg0.N) (X0 : Vec Ideal S4x4096 .f32) (X1 : Vec Ideal S1x4096 .f32) (X2 : Vec Ideal S1x1 .f32)
    (X3 : Vec Ideal S4096x512 .bf16)
    (g4 : (win0_4.xblock (grid0.coords t)).Idx → EReal) (g5 : (win0_5.xblock (grid0.coords t)).Idx → EReal)
    (g6 : (win0_6.xblock (grid0.coords t)).Idx → EReal)
    (d4 d4' : S512x4096.Idx → EReal) (d5 d5' : S512x512.Idx → EReal) (d6 d6' : S1x512.Idx → EReal) :
    win0_7.cut (grid0.coords t) (k0_pay1 (F := Ideal) X0 X1 X2 (win0_4.fill (grid0.coords t) d4 g4) X3
        (win0_5.fill (grid0.coords t) d5 g5) (win0_6.fill (grid0.coords t) d6 g6))
      = win0_7.cut (grid0.coords t) (k0_pay1 (F := Ideal) X0 X1 X2 (win0_4.fill (grid0.coords t) d4' g4) X3
        (win0_5.fill (grid0.coords t) d5' g5) (win0_6.fill (grid0.coords t) d6' g6)) := by
  funext j
  obtain ⟨b, jj, hjj, e⟩ : ∃ (b : Fin 4) (jj : Fin 512), jj.val < win0_7.xsize (grid0.coords t) 1
      ∧ win0_7.xinj (grid0.coords t) j = ix2 b jj :=
    ⟨⟨(j 0).val, by have h0 : (j 0).val < win0_7.xsize (grid0.coords t) 0 := (j 0).isLt
                    rw [xs7_0 t] at h0; exact h0⟩,
      ⟨(j 1).val, Nat.lt_of_lt_of_le (j 1).isLt (win0_7.xsize_le _ 1)⟩, (j 1).isLt,
      funext fun a => by match a with | ⟨0, _⟩ => rfl | ⟨1, _⟩ => rfl⟩
  show k0_pay1 (F := Ideal) X0 X1 X2 _ X3 _ _ (win0_7.xinj (grid0.coords t) j)
    = k0_pay1 (F := Ideal) X0 X1 X2 _ X3 _ _ (win0_7.xinj (grid0.coords t) j)
  rw [e, Cert.KernelIdeal.Pay.pay_apply, Cert.KernelIdeal.Pay.pay_apply]
  rw [show (fun d => win0_4.fill (grid0.coords t) d4 g4 (ix2 jj d)) = fun d => win0_4.fill (grid0.coords t) d4' g4 (ix2 jj d) from
      funext fun d => fill4_kept t d4 d4' g4 jj d hjj,
    show (fun r => win0_5.fill (grid0.coords t) d5 g5 (ix2 jj r)) = fun r => win0_5.fill (grid0.coords t) d5' g5 (ix2 jj r) from
      funext fun r => fill5_kept t d5 d5' g5 jj r hjj,
    fill6_kept t d6 d6' g6 jj hjj]

/-! ## The body obligation, every window named -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare (win0_4.fill (grid0.coords t) d (win0_4.cut (grid0.coords t) ((dats m 0 c).after 4 t))))
    ∗ (∃ d, owns (c : Thread nD τ) (st0_5 t) fullShare (win0_5.fill (grid0.coords t) d (win0_5.cut (grid0.coords t) ((dats m 0 c).after 5 t))))
    ∗ (∃ d, owns (c : Thread nD τ) (st0_6 t) fullShare (win0_6.fill (grid0.coords t) d (win0_6.cut (grid0.coords t) ((dats m 0 c).after 6 t))))
    ∗ (∃ d, owns (c : Thread nD τ) (st0_7 t) fullShare (win0_7.fill (grid0.coords t) d (win0_7.cut (grid0.coords t) ((dats m 0 c).after 7 t)))))

/-- The body at any point: the output buffer ends at the payload of what the input buffers hold, whose kept columns
    are those of the named output tile whatever fills the input tiles past their arrays' end. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, cut_wblk, cut_ublk, cut_bblk]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t)
    (win0_4.fill (grid0.coords t) d4 (iblk m c 4 t)) (win0_5.fill (grid0.coords t) d5 (iblk m c 5 t))
    (win0_6.fill (grid0.coords t) d6 (iblk m c 6 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexists d4; iexact H4
  isplitl [H5]; · iexists d5; iexact H5
  isplitl [H6]; · iexists d6; iexact H6
  iexists (k0_pay1 (F := Ideal) (iblk m c 0 t) (iblk m c 1 t) (iblk m c 2 t) (win0_4.fill (grid0.coords t) d4 (iblk m c 4 t))
    (iblk m c 3 t) (win0_5.fill (grid0.coords t) d5 (iblk m c 5 t)) (win0_6.fill (grid0.coords t) d6 (iblk m c 6 t)))
  rw [win0_7.fill_congr_cut (grid0.coords t) (show win0_7.cut (grid0.coords t) (k0_pay1 (F := Ideal) (iblk m c 0 t) (iblk m c 1 t) (iblk m c 2 t)
      (win0_4.fill (grid0.coords t) d4 (iblk m c 4 t)) (iblk m c 3 t) (win0_5.fill (grid0.coords t) d5 (iblk m c 5 t))
      (win0_6.fill (grid0.coords t) d6 (iblk m c 6 t))) = win0_7.cut (grid0.coords t) (oblk m c t) from
    cut_pay_indep t _ _ _ _ _ _ _ _ _ _ _ _ _)]
  iexact H7

/-- The library's body obligation at every point. -/
theorem body_obligation (c : Dev nD) :
    BodyObligationLoose (dats (F := Ideal) m 0 c) (defs₀ (F := Ideal)) Variants.none () Set.univ := fun t => by
  rw [bigSep_W0, bigSep_W0]
  exact sound_body m c t

/-! ## The run -/

set_option backward.isDefEq.respectTransparency.types false in
/-- For any values, from any memory with zero counters: every weakly fair execution of @main terminates, every array
    of the pipeline ends at what the write-backs make of it, and every other unscoped buffer at what the line after
    the region makes of it. -/
theorem run_exact : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Exact

end
-- ==== Proof.KernelValue.lean ====
import proofs.«177461_j14181982011638_1_alg».proof.Proof.BodyKI
import proofs.«177461_j14181982011638_1_alg».proof.Proof.PayIdeal
import proofs.«177461_j14181982011638_1_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The [4,11008] array the region's output ends at: the specification's entry at row `i 0` and column `i 1`. -/
def G2 (c : Dev nD) : S4x11008.Idx → EReal := fun i =>
  Cert.Spec.Gat (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) ⟨(i 0).val, (i 0).isLt⟩ ⟨(i 1).val, (i 1).isLt⟩

theorem G2_ix2 (c : Dev nD) (b : Fin 4) (o : Fin 11008) : G2 m c (ix2 b o)
    = Cert.Spec.Gat (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) b o := rfl

/-! ## What the region finds in the arrays the host lines wrote

Before the region the program reshapes x [4,1,4096] to [4,4096], the scale [4096] to a row [1,4096], the threshold [1]
to [1,1] and the bias [11008] to a row [1,11008], and forms V·diag(S): S broadcast along the rows of [4096,512],
multiplied into V entry by entry, then narrowed (the identity on extended reals). -/

/-- The x array as the region finds it: the input with its unit middle axis dropped. -/
theorem V_v0 (c : Dev nD) : (V m c main_v0 : S4x4096.Idx → EReal)
    = shapeCast S4x4096 (m ((c : Thread nD τ).loc main_arg0)) shapeCasts_S4x1x4096_S4x4096 := by
  dsimp only [Gen.V, Gen.V0]
  simp only [Gen.hostOps0, List.flatten_cons, List.flatten_nil, List.append_nil, List.cons_append, List.nil_append]
  after_results
  rfl

/-- The scale row as the region finds it: the scale vector as a one-row matrix. -/
theorem V_v1 (c : Dev nD) : (V m c main_v1 : S1x4096.Idx → EReal)
    = shapeCast S1x4096 (m ((c : Thread nD τ).loc main_arg6)) shapeCasts_S4096_S1x4096 := by
  dsimp only [Gen.V, Gen.V0]
  simp only [Gen.hostOps0, List.flatten_cons, List.flatten_nil, List.append_nil, List.cons_append, List.nil_append]
  after_results
  rfl

/-- The threshold as the region finds it: its one entry as a 1×1 matrix. -/
theorem V_v2 (c : Dev nD) : (V m c main_v2 : S1x1.Idx → EReal)
    = shapeCast S1x1 (m ((c : Thread nD τ).loc main_arg7)) shapeCasts_S1_S1x1 := by
  dsimp only [Gen.V, Gen.V0]
  simp only [Gen.hostOps0, List.flatten_cons, List.flatten_nil, List.append_nil, List.cons_append, List.nil_append]
  after_results
  rfl

/-- The bias row as the region finds it: the bias vector as a one-row matrix. -/
theorem V_v3 (c : Dev nD) : (V m c main_v3 : S1x11008.Idx → EReal)
    = shapeCast S1x11008 (m ((c : Thread nD τ).loc main_arg2)) shapeCasts_S11008_S1x11008 := by
  dsimp only [Gen.V, Gen.V0]
  simp only [Gen.hostOps0, List.flatten_cons, List.flatten_nil, List.append_nil, List.cons_append, List.nil_append]
  after_results
  rfl

/-- The low-rank factor as the region finds it: V times S broadcast along the rows, narrowed. -/
theorem V_v7 (c : Dev nD) : (V m c main_v7 : S4096x512.Idx → EReal)
    = truncf (F := Ideal) .bf16 (mulf (F := Ideal) (φ := .f32) (m ((c : Thread nD τ).loc main_arg5))
        (broadcastInDim S4096x512 ![0, 1] bcast_S1x512_S4096x512_0_1
          (broadcastInDim S1x512 ![1] bcast_S512_S1x512_1 (m ((c : Thread nD τ).loc main_arg4))))) bitsLt_bf16_f32 := by
  dsimp only [Gen.V, Gen.V0]
  simp only [Gen.hostOps0, List.flatten_cons, List.flatten_nil, List.append_nil, List.cons_append, List.nil_append]
  after_results

/-! ## The index maps and the kept extents over the grid -/

/-- Decided over the 22 grid points: the four resident windows sit at block index 0 on both axes; the weight tile and
    the U tile move along their rows, and the bias tile along its columns, with the output tile's column block, and sit
    at 0 on the other axis; the output keeps all 4 rows; each tile's kept extent along the moving axis is the output's
    kept column count and is full on the other axis; and the kept columns end inside the 11008 columns. -/
theorem grid_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = win0_7.index t (1 : Fin 2) ∧ win0_4.index t (1 : Fin 2) = 0
    ∧ win0_5.index t (0 : Fin 2) = win0_7.index t (1 : Fin 2) ∧ win0_5.index t (1 : Fin 2) = 0
    ∧ win0_6.index t (0 : Fin 2) = 0 ∧ win0_6.index t (1 : Fin 2) = win0_7.index t (1 : Fin 2)
    ∧ win0_7.index t (0 : Fin 2) = 0
    ∧ win0_7.xsize (grid0.coords t) (0 : Fin 2) = 4
    ∧ win0_4.xsize (grid0.coords t) (0 : Fin 2) = win0_7.xsize (grid0.coords t) (1 : Fin 2)
    ∧ win0_4.xsize (grid0.coords t) (1 : Fin 2) = 4096
    ∧ win0_5.xsize (grid0.coords t) (0 : Fin 2) = win0_7.xsize (grid0.coords t) (1 : Fin 2)
    ∧ win0_5.xsize (grid0.coords t) (1 : Fin 2) = 512
    ∧ win0_6.xsize (grid0.coords t) (0 : Fin 2) = 1
    ∧ win0_6.xsize (grid0.coords t) (1 : Fin 2) = win0_7.xsize (grid0.coords t) (1 : Fin 2)
    ∧ win0_7.index t (1 : Fin 2) * 512 + win0_7.xsize (grid0.coords t) (1 : Fin 2) ≤ 11008 :=
  (by decide +kernel : ∀ t : Fin grid0.N, _)

/-! ## The resident blocks read at an entry -/

/-- Dropping the unit middle axis: entry (b, d) of the [4,4096] view is entry (b, 0, d) of the [4,1,4096] array, both at
    row-major position b·4096 + d. -/
theorem cast_drop_mid {α : Type} (x : S4x1x4096.Idx → α) (h : S4x1x4096.ShapeCasts S4x4096) (b : Fin 4) (d : Fin 4096) :
    shapeCast S4x4096 x h (ix2 b d) = x (ix3 b 0 d) :=
  shapeCast_apply x h _ _ (by
    rw [Shape.rowMajor_val_three, Shape.rowMajor_val_two]
    show (b.val * 1 + 0) * 4096 + d.val = b.val * 4096 + d.val
    omega)

/-- The x block is the whole array (block index 0), so its entry (b, d) is x[b, 0, d]. -/
theorem x_at (c : Dev nD) (t : Fin cfg0.N) (b : Fin 4) (d : Fin 4096) :
    iblk m c 0 t (ix2 b d) = m ((c : Thread nD τ).loc main_arg0) (ix3 b 0 d) := by
  obtain ⟨e00, e01, -⟩ := grid_facts t
  show V m c main_v0 (((cfg0.win 0).blk t).view.emb (ix2 b d)) = _
  have hi : ((cfg0.win 0).blk t).view.emb (ix2 b d) = ix2 b d := by
    funext a; apply Fin.ext
    match a with
    | ⟨0, _⟩ => show win0_0.index t (0 : Fin 2) * 4 + 1 * b.val = b.val; omega
    | ⟨1, _⟩ => show win0_0.index t (1 : Fin 2) * 4096 + 1 * d.val = d.val; omega
  rw [hi, V_v0]
  exact cast_drop_mid _ _ b d

/-- The scale block is the whole row, so its entry (0, d) is sc[d]. -/
theorem sc_at (c : Dev nD) (t : Fin cfg0.N) (d : Fin 4096) :
    iblk m c 1 t (ix2 (0 : Fin 1) d) = m ((c : Thread nD τ).loc main_arg6) (ix1 d) := by
  obtain ⟨-, -, e10, e11, -⟩ := grid_facts t
  show V m c main_v1 (((cfg0.win 1).blk t).view.emb (ix2 (0 : Fin 1) d)) = _
  have hi : ((cfg0.win 1).blk t).view.emb (ix2 (0 : Fin 1) d) = ix2 (0 : Fin 1) d := by
    funext a; apply Fin.ext
    match a with
    | ⟨0, _⟩ => show win0_1.index t (0 : Fin 2) * 1 + 1 * 0 = 0; omega
    | ⟨1, _⟩ => show win0_1.index t (1 : Fin 2) * 4096 + 1 * d.val = d.val; omega
  rw [hi, V_v1]
  exact shapeCast_a_1a_apply _ _ 0 d

/-- The threshold block's one entry is th[0]. -/
theorem th_at (c : Dev nD) (t : Fin cfg0.N) :
    iblk m c 2 t (ix2 (0 : Fin 1) (0 : Fin 1)) = m ((c : Thread nD τ).loc main_arg7) (ix1 (0 : Fin 1)) := by
  obtain ⟨-, -, -, -, e20, e21, -⟩ := grid_facts t
  show V m c main_v2 (((cfg0.win 2).blk t).view.emb (ix2 (0 : Fin 1) (0 : Fin 1))) = _
  have hi : ((cfg0.win 2).blk t).view.emb (ix2 (0 : Fin 1) (0 : Fin 1)) = ix2 (0 : Fin 1) (0 : Fin 1) := by
    funext a; apply Fin.ext
    match a with
    | ⟨0, _⟩ => show win0_2.index t (0 : Fin 2) * 1 + 1 * 0 = 0; omega
    | ⟨1, _⟩ => show win0_2.index t (1 : Fin 2) * 1 + 1 * 0 = 0; omega
  rw [hi, V_v2]
  exact shapeCast_a_1a_apply _ _ 0 0

/-- S broadcast [512] → [1,512] → [4096,512] reads S[r] at (d, r): only the column coordinate survives. -/
theorem bcast_rows {α : Type} (s : S512.Idx → α) (h1 : S512.BroadcastsInDim S1x512 (![1] : Fin 1 → Fin S1x512.rank))
    (h2 : S1x512.BroadcastsInDim S4096x512 (![0, 1] : Fin 2 → Fin S4096x512.rank)) (d : Fin 4096) (r : Fin 512) :
    broadcastInDim S4096x512 ![0, 1] h2 (broadcastInDim S1x512 ![1] h1 s) (ix2 d r) = s (ix1 r) := by
  refine (broadcastInDim_apply _ h2 _ (ix2 d r) (ix2 (0 : Fin 1) r) (fun a => match a with
    | ⟨0, _⟩ => by show 0 = if (1 : Nat) = 1 then 0 else d.val; rw [if_pos rfl]
    | ⟨1, _⟩ => by show r.val = if (512 : Nat) = 1 then 0 else r.val; rw [if_neg (by decide)])).trans ?_
  exact broadcastInDim_apply _ h1 s (ix2 (0 : Fin 1) r) (ix1 r) (fun a => match a with
    | ⟨0, _⟩ => by show r.val = if (512 : Nat) = 1 then 0 else r.val; rw [if_neg (by decide)])

/-- The low-rank block is the whole factor, so its entry (d, r) is V[d,r]·S[r]. -/
theorem vs_at (c : Dev nD) (t : Fin cfg0.N) (d : Fin 4096) (r : Fin 512) :
    iblk m c 3 t (ix2 d r)
      = FloatOps.mulf (F := Ideal) (φ := .f32) (m ((c : Thread nD τ).loc main_arg5) (ix2 d r)) (m ((c : Thread nD τ).loc main_arg4) (ix1 r)) := by
  obtain ⟨-, -, -, -, -, -, e30, e31, -⟩ := grid_facts t
  show V m c main_v7 (((cfg0.win 3).blk t).view.emb (ix2 d r)) = _
  have hi : ((cfg0.win 3).blk t).view.emb (ix2 d r) = ix2 d r := by
    funext a; apply Fin.ext
    match a with
    | ⟨0, _⟩ => show win0_3.index t (0 : Fin 2) * 4096 + 1 * d.val = d.val; omega
    | ⟨1, _⟩ => show win0_3.index t (1 : Fin 2) * 512 + 1 * r.val = r.val; omega
  rw [hi, V_v7, truncf_apply, mulf_apply, bcast_rows]
  rfl

/-! ## The tiles read at a kept entry

A tile names only its part inside the array. Column jj of the output tile is kept exactly when jj is below the output's
kept column count, which is also the kept row count of the weight and U tiles and the kept column count of the bias
tile; so a kept output column reads only kept rows (entries) of the three tiles, and those sit in their arrays at
row (column) o = (block index)·512 + jj. -/

/-- At an index the transfer moves, the filled block holds the fetched part's entry at the same coordinates. -/
theorem fill_of_moved {G : Pipeline.Grid} (w : Window sig G) {α : Type} (i : G.Coords) (d : w.block.Idx → α) (g : (w.xblock i).Idx → α)
    (j : w.block.Idx) (h : w.moved i j = true) :
    w.fill i d g j = g fun a => ⟨(j a).val, (w.moved_iff i j).mp h a⟩ := by
  unfold Window.fill; rw [dif_pos h]

/-- Row jj of the weight tile, for a kept jj, is row o of W. -/
theorem w_at (c : Dev nD) (t : Fin cfg0.N) (jj : Fin 512) (d : Fin 4096) (o : Fin 11008)
    (hj : jj.val < win0_7.xsize (grid0.coords t) (1 : Fin 2)) (ho : o.val = win0_7.index t (1 : Fin 2) * 512 + jj.val) :
    wblk m c t (ix2 jj d) = m ((c : Thread nD τ).loc main_arg1) (ix2 o d) := by
  obtain ⟨-, -, -, -, -, -, -, -, e40, e41, -, -, -, -, -, -, s40, s41, -⟩ := grid_facts t
  have hm : win0_4.moved (grid0.coords t) (ix2 jj d) = true := (win0_4.moved_iff _ _).mpr fun a => by
    match a with
    | ⟨0, _⟩ => show jj.val < win0_4.xsize (grid0.coords t) (0 : Fin 2); omega
    | ⟨1, _⟩ => show d.val < win0_4.xsize (grid0.coords t) (1 : Fin 2); have := d.isLt; omega
  unfold wblk
  refine (fill_of_moved win0_4 _ _ _ _ hm).trans ?_
  show V m c main_arg1 (((cfg0.win 4).blk t).view.emb _) = _
  rw [V_main_arg1]
  refine congrArg _ (funext fun a => Fin.ext ?_)
  match a with
  | ⟨0, _⟩ => show win0_4.index t (0 : Fin 2) * 512 + 1 * jj.val = o.val; omega
  | ⟨1, _⟩ => show win0_4.index t (1 : Fin 2) * 4096 + 1 * d.val = d.val; omega

/-- Row jj of the U tile, for a kept jj, is row o of U. -/
theorem u_at (c : Dev nD) (t : Fin cfg0.N) (jj : Fin 512) (r : Fin 512) (o : Fin 11008)
    (hj : jj.val < win0_7.xsize (grid0.coords t) (1 : Fin 2)) (ho : o.val = win0_7.index t (1 : Fin 2) * 512 + jj.val) :
    ublk m c t (ix2 jj r) = m ((c : Thread nD τ).loc main_arg3) (ix2 o r) := by
  obtain ⟨-, -, -, -, -, -, -, -, -, -, e50, e51, -, -, -, -, -, -, s50, s51, -⟩ := grid_facts t
  have hm : win0_5.moved (grid0.coords t) (ix2 jj r) = true := (win0_5.moved_iff _ _).mpr fun a => by
    match a with
    | ⟨0, _⟩ => show jj.val < win0_5.xsize (grid0.coords t) (0 : Fin 2); omega
    | ⟨1, _⟩ => show r.val < win0_5.xsize (grid0.coords t) (1 : Fin 2); have := r.isLt; omega
  unfold ublk
  refine (fill_of_moved win0_5 _ _ _ _ hm).trans ?_
  show V m c main_arg3 (((cfg0.win 5).blk t).view.emb _) = _
  rw [V_main_arg3]
  refine congrArg _ (funext fun a => Fin.ext ?_)
  match a with
  | ⟨0, _⟩ => show win0_5.index t (0 : Fin 2) * 512 + 1 * jj.val = o.val; omega
  | ⟨1, _⟩ => show win0_5.index t (1 : Fin 2) * 512 + 1 * r.val = r.val; omega

/-- Entry jj of the bias tile, for a kept jj, is bias[o]. -/
theorem b_at (c : Dev nD) (t : Fin cfg0.N) (jj : Fin 512) (o : Fin 11008)
    (hj : jj.val < win0_7.xsize (grid0.coords t) (1 : Fin 2)) (ho : o.val = win0_7.index t (1 : Fin 2) * 512 + jj.val) :
    bblk m c t (ix2 (0 : Fin 1) jj) = m ((c : Thread nD τ).loc main_arg2) (ix1 o) := by
  obtain ⟨-, -, -, -, -, -, -, -, -, -, -, -, e60, e61, -, -, -, -, -, -, s60, s61, -⟩ := grid_facts t
  have hm : win0_6.moved (grid0.coords t) (ix2 (0 : Fin 1) jj) = true := (win0_6.moved_iff _ _).mpr fun a => by
    match a with
    | ⟨0, _⟩ => show 0 < win0_6.xsize (grid0.coords t) (0 : Fin 2); omega
    | ⟨1, _⟩ => show jj.val < win0_6.xsize (grid0.coords t) (1 : Fin 2); omega
  unfold bblk
  refine (fill_of_moved win0_6 _ _ _ _ hm).trans ?_
  show V m c main_v3 (((cfg0.win 6).blk t).view.emb _) = _
  have hi : ∀ y, ((cfg0.win 6).blk t).view.emb y = ix2 (0 : Fin 1) o → V m c main_v3 (((cfg0.win 6).blk t).view.emb y) = m ((c : Thread nD τ).loc main_arg2) (ix1 o) := by
    intro y hy
    rw [hy, V_v3]
    exact shapeCast_a_1a_apply _ _ 0 o
  refine hi _ (funext fun a => Fin.ext ?_)
  match a with
  | ⟨0, _⟩ => show win0_6.index t (0 : Fin 2) * 1 + 1 * 0 = 0; omega
  | ⟨1, _⟩ => show win0_6.index t (1 : Fin 2) * 512 + 1 * jj.val = o.val; omega

/-! ## One kept entry of the output tile, and the block -/

/-- `G2` at an index whose coordinates are b and o is the specification's entry (b, o). -/
theorem G2_at (c : Dev nD) (i : S4x11008.Idx) (b : Fin 4) (o : Fin 11008) (hb : (i 0).val = b.val) (ho : (i 1).val = o.val) :
    G2 m c i = Cert.Spec.Gat (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) b o := by
  unfold G2
  exact congrArg₂ (Cert.Spec.Gat (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7))) (Fin.ext hb) (Fin.ext ho)

/-- A kept entry (b, jj) of the output tile at point t is the specification's entry (b, o), o = (block index)·512 + jj:
    the payload reads row b of x, the scale row and the threshold for the gate, row jj of the weight tile and of the U
    tile, the whole low-rank factor, and entry jj of the bias tile; each is the matching entry of an argument array. -/
theorem entry (c : Dev nD) (t : Fin cfg0.N) (b : Fin 4) (jj : Fin 512) (o : Fin 11008)
    (hj : jj.val < win0_7.xsize (grid0.coords t) (1 : Fin 2)) (ho : o.val = win0_7.index t (1 : Fin 2) * 512 + jj.val) :
    oblk m c t (ix2 b jj) = Cert.Spec.Gat (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) b o := by
  unfold oblk
  refine (Cert.KernelIdeal.Pay.pay_apply (iblk m c 0 t) (iblk m c 1 t) (iblk m c 2 t) (wblk m c t) (iblk m c 3 t) (ublk m c t)
    (bblk m c t) b jj).trans ?_
  unfold Cert.Spec.Gat
  simp only [x_at, sc_at, th_at, vs_at, w_at m c t jj _ o hj ho, u_at m c t jj _ o hj ho, b_at m c t jj o hj ho]

/-- What point `t` writes back — the kept columns of the output tile — is the block of `G2` the write-back covers. -/
theorem flushed7_eq (c : Dev nD) (t : Fin cfg0.N) :
    (dats m 0 c).flushed 7 t = ((cfg0.win 7).blk t).view.read (Elt Ideal) (G2 m c) := by
  show (cfg0.win 7).cut (grid0.coords t) ((dats m 0 c).after 7 t) = _
  rw [after0_7]
  funext j
  obtain ⟨-, -, -, -, -, -, -, -, -, -, -, -, -, -, e70, s70, -, -, -, -, -, -, hin⟩ := grid_facts t
  have hb : (j 0).val < 4 := (j 0).isLt.trans_eq s70
  have hjx : (j 1).val < win0_7.xsize (grid0.coords t) (1 : Fin 2) := (j 1).isLt
  have hjj : (j 1).val < 512 := lt_of_lt_of_le hjx (win0_7.xsize_le (grid0.coords t) (1 : Fin 2))
  have hoo : win0_7.index t (1 : Fin 2) * 512 + (j 1).val < 11008 := by omega
  have hx : win0_7.xinj (grid0.coords t) j = ix2 (⟨(j 0).val, hb⟩ : Fin 4) (⟨(j 1).val, hjj⟩ : Fin 512) :=
    funext fun a => match a with | ⟨0, _⟩ => rfl | ⟨1, _⟩ => rfl
  show oblk m c t (win0_7.xinj (grid0.coords t) j) = G2 m c (((cfg0.win 7).blk t).view.emb j)
  refine (congrArg (oblk m c t) hx).trans ?_
  refine (entry m c t ⟨(j 0).val, hb⟩ ⟨(j 1).val, hjj⟩ ⟨win0_7.index t (1 : Fin 2) * 512 + (j 1).val, hoo⟩ hjx rfl).trans ?_
  refine (G2_at m c _ _ _ ?_ ?_).symm
  · show win0_7.index t (0 : Fin 2) * 4 + 1 * (j 0).val = (j 0).val
    omega
  · show win0_7.index t (1 : Fin 2) * 512 + 1 * (j 1).val = win0_7.index t (1 : Fin 2) * 512 + (j 1).val
    omega

end Cert.KernelIdeal.KValue

end
-- ==== Proof.KernelFinal.lean ====
import proofs.«177461_j14181982011638_1_alg».proof.Proof.BodyKI
import proofs.«177461_j14181982011638_1_alg».proof.Proof.Spec
import proofs.«177461_j14181982011638_1_alg».proof.Proof.ExactRun
import proofs.«177461_j14181982011638_1_alg».proof.Proof.KernelValue
import Idealize.ShloMosaic.Lib.ValueIdx
import Idealize.ShloMosaic.Lib.Pipeline.Value

set_option maxRecDepth 16384

noncomputable section

namespace Cert.KernelIdeal.Final

open Cert.KernelIdeal Cert.KernelIdeal.Gen Cert.KernelIdeal.Body Cert.KernelIdeal.Exact Cert.KernelIdeal.KValue
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## From the 22 written-back tiles to the whole result

The output array [4,11008] is written in tiles of 512 columns, tile t at columns 512·t … 512·t + 511, and
11008 = 21·512 + 256: tiles 0 … 20 are written whole, of tile 21 only its first 256 columns, which end exactly at the
array's last column. So column j lies in the written part of tile j / 512 and of no other, every row lies in every
tile, and the array after the last write-back is, entry by entry, what the tiles wrote: the specification's entry.
The one line after the region only inserts a unit axis, which keeps every entry's row-major position b·11008 + o. -/

/-- The output window's block index and kept sizes, decided once over the 22 grid points: the block row is 0, the
    block column is the point, all 4 rows are kept, and of the 512 columns those that lie below column 11008. -/
theorem out_window_facts : ∀ t : Fin cfg0.N, win0_7.index t (0 : Fin 2) = 0 ∧ win0_7.index t (1 : Fin 2) = t.val
    ∧ win0_7.xsize (grid0.coords t) 0 = 4 ∧ win0_7.xsize (grid0.coords t) 1 = min 512 (11008 - 512 * t.val) :=
  (by decide +kernel : ∀ t : Fin grid0.N, win0_7.index t (0 : Fin 2) = 0 ∧ win0_7.index t (1 : Fin 2) = t.val
    ∧ win0_7.xsize (grid0.coords t) 0 = 4 ∧ win0_7.xsize (grid0.coords t) 1 = min 512 (11008 - 512 * t.val))

/-- An index of the [4,11008] array lies in the rectangle point `t` writes back iff on each axis its coordinate is at
    or past the tile's first and before the tile's first plus the kept size. -/
theorem mem_out_rect (t : Fin cfg0.N) (i : S4x11008.Idx) :
    i ∈ ((cfg0.win 7).blk t).view.set ↔ ∀ a : Fin 2, win0_7.index t a * S4x512.size a ≤ (i a).val
      ∧ (i a).val < win0_7.index t a * S4x512.size a + win0_7.xsize (grid0.coords t) a := by
  show i ∈ ((View.whole main_v8).slice (win0_7.rect t)).set ↔ _
  rw [View.set_slice_whole, Rect.mem_set_unit]
  exact Iff.rfl

/-- Column `j` is written back by point `j / 512`: 512·(j/512) ≤ j < 512·(j/512) + min 512 (11008 − 512·(j/512))
    because j < 11008, and every row is below 4. -/
theorem out_cover (i : S4x11008.Idx) :
    ∃ t : Fin cfg0.N, (cfg0.win 7).flush t = true ∧ i ∈ ((cfg0.win 7).blk t).view.set := by
  have hi0 : (i 0).val < 4 := (i 0).isLt
  have hi1 : (i 1).val < 11008 := (i 1).isLt
  have hN : cfg0.N = 22 := N_0
  have hq : (i 1).val / 512 < cfg0.N := by rw [hN]; omega
  obtain ⟨e0, e1, e2, e3⟩ := out_window_facts ⟨(i 1).val / 512, hq⟩
  refine ⟨⟨(i 1).val / 512, hq⟩, flush0_7 _, ?_⟩
  rw [mem_out_rect]
  intro a
  match a with
  | ⟨0, _⟩ =>
    show win0_7.index ⟨(i 1).val / 512, hq⟩ (0 : Fin 2) * 4 ≤ (i 0).val
      ∧ (i 0).val < win0_7.index ⟨(i 1).val / 512, hq⟩ (0 : Fin 2) * 4 + win0_7.xsize (grid0.coords ⟨(i 1).val / 512, hq⟩) 0
    rw [e0, e2]; omega
  | ⟨1, _⟩ =>
    show win0_7.index ⟨(i 1).val / 512, hq⟩ (1 : Fin 2) * 512 ≤ (i 1).val
      ∧ (i 1).val < win0_7.index ⟨(i 1).val / 512, hq⟩ (1 : Fin 2) * 512 + win0_7.xsize (grid0.coords ⟨(i 1).val / 512, hq⟩) 1
    rw [e1, e3]
    show (i 1).val / 512 * 512 ≤ (i 1).val ∧ (i 1).val < (i 1).val / 512 * 512 + min 512 (11008 - 512 * ((i 1).val / 512))
    omega

/-- The output array after the last write-back: the 22 tiles' kept columns piece the whole array together. -/
theorem final7 (c : Dev nD) : (dats m 0 c).arrAt 7 cfg0.N = G2 m c :=
  (dats m 0 c).arrAt_eq_of_cover 7 (G2 m c) (fun t _ => flushed7_eq m c t) out_cover

/-- The line after the region reshapes [4,11008] to [4,1,11008]: the result is the specification's array. -/
theorem tail_v9 (c : Dev nD) :
    Pipeline.afterTail₀ cfgs (dats m) 0 (V0 m) [hostOps1] c main_v9
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  -- the [4,11008] array the reshape reads is the region's output array after its last write-back
  have hsrc : Pipeline.withArrays (cfgs 0).spec c (V0 m c) (fun w => (dats m 0 c).arrAt w (cfgs 0).N) (Proc.devRef .tc main_v8)
      = G2 m c :=
    (Pipeline.withArrays_arr spec0 launch0.win.arr_inj c _ _ 7).trans (final7 m c)
  unfold Pipeline.afterTail₀
  show StableHlo.after hostOps1 _ (Proc.devRef .tc main_v9) = _
  after_results
  funext i
  obtain ⟨b, z, o, rfl⟩ : ∃ (b : Fin 4) (z : Fin 1) (o : Fin 11008), i = ix3 b z o := ⟨i 0, i 1, i 2, eq_ix3 i⟩
  -- entry (b, 0, o) of the reshaped array sits at row-major position b·11008 + o, which is entry (b, o) of the source
  refine (shapeCast_apply (s := S4x11008) (t := S4x1x11008) _ shapeCasts_S4x11008_S4x1x11008 (ix3 b z o) (ix2 b o) ?_).trans ?_
  · rw [Shape.rowMajor_val_two, Shape.rowMajor_val_three]
    show b.val * 11008 + o.val = (b.val * 1 + z.val) * 11008 + o.val
    have hz : z.val = 0 := by omega
    rw [hz, Nat.mul_one, Nat.add_zero]
  · rw [Cert.Spec.G_ix3]
    exact (congrFun hsrc (ix2 b o)).trans (G2_ix2 m c b o)

/-- The idealized kernel's run: the result array ends at the specification of the argument arrays, which end as launched. -/
theorem run : θ_run defs (onTc (τ := τ) (main (F := Ideal))) ⟨m, fun _ => 0, ρ⟩ (fun r => ∀ c : Dev nD,
      r.2.mem ((c.tc : Thread nD τ).loc main_v9) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run_exact m ρ)
  -- the run's post: every array the region stages ends at what its write-backs leave, every other array at what the
  -- line after the region leaves
  have hpost : Pipeline.FramePost cfgs (dats m) 0 (Pipeline.afterTail₀ cfgs (dats m) 0 (V0 m) [hostOps1]) r := h
  exact ⟨((hpost c).2 main_v9 (Pipeline.mem_restRefs_of main_v9 (by decide) (by decide))).trans (tail_v9 m c),
    ((hpost c).2 main_arg0 (Pipeline.mem_restRefs_of main_arg0 (by decide) (by decide))).trans (W_main_arg0 m (dats m) c),
    ((hpost c).1 4).trans (((dats m 0 c).arrAt_in 4 rfl _).trans ((A_eq m c 4).trans (V_main_arg1 m c))),
    ((hpost c).2 main_arg2 (Pipeline.mem_restRefs_of main_arg2 (by decide) (by decide))).trans (W_main_arg2 m (dats m) c),
    ((hpost c).1 5).trans (((dats m 0 c).arrAt_in 5 rfl _).trans ((A_eq m c 5).trans (V_main_arg3 m c))),
    ((hpost c).2 main_arg4 (Pipeline.mem_restRefs_of main_arg4 (by decide) (by decide))).trans (W_main_arg4 m (dats m) c),
    ((hpost c).2 main_arg5 (Pipeline.mem_restRefs_of main_arg5 (by decide) (by decide))).trans (W_main_arg5 m (dats m) c),
    ((hpost c).2 main_arg6 (Pipeline.mem_restRefs_of main_arg6 (by decide) (by decide))).trans (W_main_arg6 m (dats m) c),
    ((hpost c).2 main_arg7 (Pipeline.mem_restRefs_of main_arg7 (by decide) (by decide))).trans (W_main_arg7 m (dats m) c)⟩

end Cert.KernelIdeal.Final

end
-- ==== Proof.lean ====
/-
  The certificate of a gated linear layer with a low-rank complement, decoding one token for each of 4 rows.

  With x : [4,1,4096], W : [11008,4096], bias : [11008], U : [11008,512], S : [512], V : [4096,512], a scale [4096]
  and a threshold [1], let gate[b,d] be 1 where |x[b,0,d]·scale[d]| exceeds the threshold and 0 elsewhere. Both
  programs compute

    out[b,0,o] = Σ_d x[b,0,d]·gate[b,d]·W[o,d]  +  Σ_r (Σ_d x[b,0,d]·(1 − gate[b,d])·(V[d,r]·S[r]))·U[o,r]  +  bias[o].

  The reference does so with three whole contractions on the host and adds the bias to the first before the second
  arrives. The kernel tiles the 11008 output columns by 512 over a grid of 22 points (the last tile half outside the
  arrays), keeps x, the scale, the threshold and V·diag(S) resident, and at each point stores the tile
  (gated product + low-rank product) + bias tile. Over the extended reals a change of float format is the identity
  and a matrix product into a zero accumulator is the plain sum of products, so the two differ only in how the
  three summands are grouped: addition's commutativity and associativity, which hold at the infinities too — the
  precondition that the inputs are finite is never opened.

  The pieces: the kernel body's triple and the frame of both kernel programs, the output forgotten (Proof/BodyKI.lean
  and its layout in the word-level program's namespace, Proof/BodyK.lean); the body's arithmetic at an index
  (Proof/PayIdeal.lean); the idealized kernel's run with every array named, which rests on an output column reading
  only its own weight row, U row and bias entry, so that the rows past the arrays' end drop out (Proof/ExactRun.lean);
  the tiles' kept columns as blocks of one whole-array function and their union (Proof/KernelValue.lean,
  Proof/KernelFinal.lean); the reference read at an index (Proof/RefValue.lean); the function itself (Proof/Spec.lean).
-/
import proofs.«177461_j14181982011638_1_alg».proof.Defs
import proofs.«177461_j14181982011638_1_alg».proof.Proof.Gen.Kernel
import proofs.«177461_j14181982011638_1_alg».proof.Proof.Gen.KernelIdeal
import proofs.«177461_j14181982011638_1_alg».proof.Proof.Gen.ReferenceIdeal
import proofs.«177461_j14181982011638_1_alg».proof.Proof.Gen.Pre_finite_inputs
import proofs.«177461_j14181982011638_1_alg».proof.Proof.Gen.ReferenceIdeal.Run
import proofs.«177461_j14181982011638_1_alg».proof.Proof.Gen.ReferenceIdeal.Read
import proofs.«177461_j14181982011638_1_alg».proof.Proof.BodyK
import proofs.«177461_j14181982011638_1_alg».proof.Proof.BodyKI
import proofs.«177461_j14181982011638_1_alg».proof.Proof.RefValue
import proofs.«177461_j14181982011638_1_alg».proof.Proof.KernelFinal
import Idealize.ShloMosaic.Adequacy
import Idealize.ShloMosaic.Init

noncomputable section

namespace Cert.Proof

open Idealize.ShloMosaic Idealize.SL.Sem

/-- The word-level program runs, faults nowhere and leaves its arguments: the frame with the output forgotten. -/
theorem frame_k : Cert.frame_Kernel := fun m ρ _ => Cert.Kernel.Body.frame (F := Bits) m ρ

/-- The idealized program likewise, the same text read over the extended reals. -/
theorem frame_ki : Cert.frame_KernelIdeal := fun m ρ _ => Cert.KernelIdeal.Body.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- Over the extended reals the kernel's result array and the reference's are the one function `Cert.Spec.G` of the
    argument arrays: the kernel's by its tiles' kept columns, the reference's by reading its operations at an index
    and regrouping the three summands. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.RefValue.ref_eq, (hagree c).1, (hagree c).2.1, (hagree c).2.2.1,
    (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
